-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x4x4 : Shape := ⟨3, ![8, 4, 4]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x4x4 : S_.BroadcastsInDim S8x4x4 (![] : Fin 0 → Fin S8x4x4.rank)
  reducesTo_S8x4x4_S_d0_1_2 : S8x4x4.ReducesTo [0, 1, 2] S_

variable [Facts]

def fn {F : FTy → Type} [FloatOps F] (main_arg0 : FVec F S8x4096x3 .f32) (main_arg1 : FVec F S8x4096x3 .f32) (main_arg2 : FVec F S8x4x4 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x4x4 .f32 := Host.absf main_arg2
  let main_cst_2 : FVec F S_ .f32 := constant S_ .f32 0x7F800000#32
  let main_v10 : FVec F S8x4x4 .f32 := broadcastInDim S8x4x4 ![] bcast_S_S8x4x4 main_cst_2
  let main_v11 : IVec S8x4x4 1 := cmpf .olt main_v9 main_v10
  let main_c_3 : IVec S_ 1 := constantI S_ 1 1#1
  let main_v12 : IVec S_ 1 := (fun x v => Host.reduce IntOp.andi x v reducesTo_S8x4x4_S_d0_1_2 h_S_) main_v11 main_c_3
  let main_v13 : IVec S_ 1 := andi main_v8 main_v12
  main_v13
-- ==== Kernel.lean ====
abbrev S8x4096x3 : Shape := ⟨3, ![8, 4096, 3]⟩
abbrev S8x4x4 : Shape := ⟨3, ![8, 4, 4]⟩
abbrev S8x3x3 : Shape := ⟨3, ![8, 3, 3]⟩
abbrev S8x3x1 : Shape := ⟨3, ![8, 3, 1]⟩
abbrev S8x3 : Shape := ⟨2, ![8, 3]⟩
abbrev S8x1x3 : Shape := ⟨3, ![8, 1, 3]⟩
abbrev S8x4096 : Shape := ⟨2, ![8, 4096]⟩
abbrev S8x512x3 : Shape := ⟨3, ![8, 512, 3]⟩
abbrev S8x512 : Shape := ⟨2, ![8, 512]⟩
abbrev S8x512x1 : Shape := ⟨3, ![8, 512, 1]⟩
abbrev S8x512x512 : Shape := ⟨3, ![8, 512, 512]⟩
abbrev S8x1x512 : Shape := ⟨3, ![8, 1, 512]⟩
abbrev S_ : Shape := ⟨0, ![]⟩

abbrev nBuf : Space → Nat
  | .hbm => 17
  | .vmem => 7
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4x4, .f32⟩
  | .hbm, ⟨3, _⟩ => ⟨S8x3x3, .f32⟩
  | .hbm, ⟨4, _⟩ => ⟨S8x3x1, .f32⟩
  | .hbm, ⟨5, _⟩ => ⟨S8x3, .f32⟩
  | .hbm, ⟨6, _⟩ => ⟨S8x4096x3, .f32⟩
  | .hbm, ⟨7, _⟩ => ⟨S8x1x3, .f32⟩
  | .hbm, ⟨8, _⟩ => ⟨S8x4096x3, .f32⟩
  | .hbm, ⟨9, _⟩ => ⟨S8x4096x3, .f32⟩
  | .hbm, ⟨10, _⟩ => ⟨S8x4096, .f32⟩
  | .hbm, ⟨11, _⟩ => ⟨S8x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S8x512x3, .f32⟩
  | .local _ .vmem, ⟨1, _⟩ => ⟨S8x512x3, .f32⟩
  | .local _ .vmem, ⟨2, _⟩ => ⟨S8x512x3, .f32⟩
  | .local _ .vmem, ⟨3, _⟩ => ⟨S8x512x3, .f32⟩
  | .local _ .vmem, ⟨4, _⟩ => ⟨S8x512, .f32⟩
  | .local _ .vmem, ⟨5, _⟩ => ⟨S8x512, .f32⟩
  | .local _ .vmem, ⟨6, _⟩ => ⟨S8x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v29 : BitVec 32 := Scalar.muli arg1 c512_i32
  v29
def k0_off1 (i : grid0.Coords) : Fin 2 → Nat :=
  let c0_16 : Index := 0#32
  let arg1 : BitVec 32 := BitVec.ofNat 32 (i 1).val
  let c512_i32 : BitVec 32 := 512#32
  let v29 : BitVec 32 := Scalar.muli arg1 c512_i32
  let v30 : BitVec 32 := v29
  let v31 : Index := Scalar.indexCast v30
  ![0, v31.toNat]
def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_10 : BitVec 32 := 0#32
  let v20 : BitVec 1 := Scalar.cmpi .ne v19 c0_i32_10
  v20

def k0_cond2 (i : grid0.Coords) : BitVec 1 :=
  let arg1 : BitVec 32 := BitVec.ofNat 32 (i 1).val
  let c0_i32_11 : BitVec 32 := 0#32
  let v21 : BitVec 1 := Scalar.cmpi .ne arg1 c0_i32_11
  let v22 : BitVec 32 := Scalar.extui v21
  let c0_i32_12 : BitVec 32 := 0#32
  let v23 : BitVec 1 := Scalar.cmpi .ne v22 c0_i32_12
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  slices_S8x4x4_S8x3x3_0_0_0 : S8x4x4.Slices ![0, 0, 0] S8x3x3
  slices_S8x4x4_S8x3x1_0_0_3 : S8x4x4.Slices ![0, 0, 3] S8x3x1
  shapeCasts_S8x3x1_S8x3 : S8x3x1.ShapeCasts S8x3
  bcast_S8x3_S8x1x3_0_2 : S8x3.BroadcastsInDim S8x1x3 (![0, 2] : Fin 2 → Fin S8x1x3.rank)
  bcast_S8x1x3_S8x4096x3_0_1_2 : S8x1x3.BroadcastsInDim S8x4096x3 (![0, 1, 2] : Fin 3 → Fin S8x4096x3.rank)
  inb_S8x512x3_S8x512x3_0_0_0 : ∀ a, (![0, 0, 0] : Fin 3 → Nat) a + S8x512x3.size a ≤ S8x512x3.size a
  h_S8x512x3 : 0 < S8x512x3.numel
  shapeCasts_S8x512x3_S8x512x3 : S8x512x3.ShapeCasts S8x512x3
  reduces_S8x512x3_S8x512 : S8x512x3.Reduces [2] S8x512
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  reduces_S8x512x512_S8x512 : S8x512x512.Reduces [2] S8x512
  reduces_S8x512x512_S8x512_2 : S8x512x512.Reduces [1] S8x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x4096_S8x4096_0_0 : ∀ a, (![0, 0] : Fin 2 → Nat) a + S8x4096.size a ≤ S8x4096.size a
  h_S8x4096 : 0 < S8x4096.numel
  reducesTo_S8x4096_S_d0_1 : S8x4096.ReducesTo [0, 1] S_
  h_S_ : 0 < S_.numel
  dot_S8x4096x3_S8x3x3_S8x4096x3_2_2_1_1_0_0_wf : DotDims.WF S8x4096x3 S8x3x3 S8x4096x3 [2] [2] [1] [1] [0] [0]
  dot_S8x512x3_S8x512x3_S8x512x512_2_2_1_1_0_0_wf : DotDims.WF S8x512x3 S8x512x3 S8x512x512 [2] [2] [1] [1] [0] [0]
  hrank0 : 0 < grid0.rank
  k0_mult1_dvd : ∀ i : grid0.Coords, 512 ∣ (k0_mult1 i).toNat
  k0_off1_inb : ∀ i : grid0.Coords, ∀ a, (k0_off1 i) a + S8x512.size a ≤ S8x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S8x4096x3.size a
  hwx0_0 : ∀ i : grid0.Coords, EltTy.bits .f32 = 32 ∨ (Rect.block (s := S8x4096x3) S8x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x3.size a ≤ S8x4096x3.size a
  hwx0_1 : ∀ i : grid0.Coords, EltTy.bits .f32 = 32 ∨ (Rect.block (s := S8x4096x3) S8x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S8x4096.size a
  hwx0_3 : ∀ i : grid0.Coords, EltTy.bits .f32 = 32 ∨ (Rect.block (s := S8x4096) S8x4096.size (cc0_transform_3 i) (hinb0_3 i)).WholeWords (EltTy.packing .f32)

variable [Facts₀]

def dot_S8x4096x3_S8x3x3_S8x4096x3_2_2_1_1_0_0 : DotDims S8x4096x3 S8x3x3 S8x4096x3 where
  lhsContracting := [2]
  rhsContracting := [2]
  lhsNonContracting := [1]
  rhsNonContracting := [1]
  lhsBatch := [0]
  rhsBatch := [0]
  wf := dot_S8x4096x3_S8x3x3_S8x4096x3_2_2_1_1_0_0_wf
def dot_S8x512x3_S8x512x3_S8x512x512_2_2_1_1_0_0 : DotDims S8x512x3 S8x512x3 S8x512x512 where
  lhsContracting := [2]
  rhsContracting := [2]
  lhsNonContracting := [1]
  rhsNonContracting := [1]
  lhsBatch := [0]
  rhsBatch := [0]
  wf := dot_S8x512x3_S8x512x3_S8x512x512_2_2_1_1_0_0_wf

abbrev win0_0 : Pipeline.Window sig grid0 :=
  Pipeline.Window.ofSpec (Memref.whole main_v6) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S8x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S8x4096.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x4x4 : Shape := ⟨3, ![8, 4, 4]⟩
abbrev S8x3x3 : Shape := ⟨3, ![8, 3, 3]⟩
abbrev S8x3x1 : Shape := ⟨3, ![8, 3, 1]⟩
abbrev S8x3 : Shape := ⟨2, ![8, 3]⟩
abbrev S8x1x3 : Shape := ⟨3, ![8, 1, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4x4, .f32⟩
  | .hbm, ⟨3, _⟩ => ⟨S8x3x3, .f32⟩
  | .hbm, ⟨4, _⟩ => ⟨S8x3x1, .f32⟩
  | .hbm, ⟨5, _⟩ => ⟨S8x3, .f32⟩
  | .hbm, ⟨6, _⟩ => ⟨S8x4096x3, .f32⟩
  | .hbm, ⟨7, _⟩ => ⟨S8x1x3, .f32⟩
  | .hbm, ⟨8, _⟩ => ⟨S8x4096x3, .f32⟩
  | .hbm, ⟨9, _⟩ => ⟨S8x4096x3, .f32⟩
  | .hbm, ⟨10, _⟩ => ⟨S8x4096x3, .f32⟩
  | .hbm, ⟨11, _⟩ => ⟨S_, .f32⟩
  | .hbm, ⟨12, _⟩ => ⟨S8x4096, .f32⟩
  | .hbm, ⟨13, _⟩ => ⟨S8x4096x3, .f32⟩
  | .hbm, ⟨14, _⟩ => ⟨S_, .f32⟩
  | .hbm, ⟨15, _⟩ => ⟨S8x4096, .f32⟩
  | .hbm, ⟨16, _⟩ => ⟨S8x4096x4096, .f32⟩
  | .hbm, ⟨17, _⟩ => ⟨S8x4096x1, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x4096, .f32⟩
  | .hbm, ⟨32, _⟩ => ⟨S_, .f32⟩
  | .hbm, ⟨33, _⟩ => ⟨S_, .f32⟩
  | .hbm, ⟨34, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  slices_S8x4x4_S8x3x3_0_0_0 : S8x4x4.Slices ![0, 0, 0] S8x3x3
  slices_S8x4x4_S8x3x1_0_0_3 : S8x4x4.Slices ![0, 0, 3] S8x3x1
  shapeCasts_S8x3x1_S8x3 : S8x3x1.ShapeCasts S8x3
  bcast_S8x3_S8x1x3_0_2 : S8x3.BroadcastsInDim S8x1x3 (![0, 2] : Fin 2 → Fin S8x1x3.rank)
  bcast_S8x1x3_S8x4096x3_0_1_2 : S8x1x3.BroadcastsInDim S8x4096x3 (![0, 1, 2] : Fin 3 → Fin S8x4096x3.rank)
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S_d0_1 : S8x4096.ReducesTo [0, 1] S_
  reducesTo_S8x4096x4096_S8x4096_d2 : S8x4096x4096.ReducesTo [2] S8x4096
  dot_S8x4096x3_S8x3x3_S8x4096x3_2_2_1_1_0_0_wf : DotDims.WF S8x4096x3 S8x3x3 S8x4096x3 [2] [2] [1] [1] [0] [0]
  dot_S8x4096x3_S8x4096x3_S8x4096x4096_2_2_1_1_0_0_wf : DotDims.WF S8x4096x3 S8x4096x3 S8x4096x4096 [2] [2] [1] [1] [0] [0]

variable [Facts₀]

def dot_S8x4096x3_S8x3x3_S8x4096x3_2_2_1_1_0_0 : DotDims S8x4096x3 S8x3x3 S8x4096x3 where
  lhsContracting := [2]
  rhsContracting := [2]
  lhsNonContracting := [1]
  rhsNonContracting := [1]
  lhsBatch := [0]
  rhsBatch := [0]
  wf := dot_S8x4096x3_S8x3x3_S8x4096x3_2_2_1_1_0_0_wf
def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.K.Body.lean ====
/-
  The frame of the kernel program, for every float instance.

  The kernel walks an 8 × 8 grid of (row tile i, column tile j) over the 4096 × 4096 table of squared distances
  P[b, n, m] between the transformed points and the reconstructed points, 512 rows by 512 columns at a point, all 8
  batches at once. It keeps two running minima in its output buffers across grid points:
    * the row buffer (8 × 512), indexed by the row tile only: stored whole at a first column tile (j = 0), and at a
      later column tile replaced by the minimum of what it held and the tile's row minima; written back after j = 7;
    * the column buffer (8 × 4096), one block for the whole grid: reset to +∞ at the very first point, then at every
      point updated on the 512 columns of the current column tile by the minimum with the tile's column minima; written
      back once, after the last point.
  Below: the step functions of the two buffers, the body's triple in each of the three cases of its branches that
  the grid meets, what the buffers hold after each point (a recursion on the point), the pipeline's proof data, the
  body obligation, the run and the frame.
-/
import proofs.«102629_j8830452761307_1_alg».proof.Proof.Gen.Kernel.Frame
import proofs.«102629_j8830452761307_1_alg».proof.Proof.Gen.Kernel.Skeleton
import Idealize.ShloMosaic.Lib.Pipeline.Value
import Idealize.ShloMosaic.Lib.Writes

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.Kernel.Facts₀

variable {F : FTy → Type} [FloatOps F]
local notation "𝕄" => MT nD τ sig Unit (Elt F) ℕ (UR sig nD τ) ℕ

/-! ## Rectangles and the pure step functions

The body reads its two input blocks whole, and keeps two running minima in its output buffers: the row buffer
(one value per row of the current row tile, over the column tiles seen so far) and the column buffer (one value per
column of the whole array, over the row tiles seen so far). -/

abbrev rIn : Rect S8x512x3 := Rect.unit (s := S8x512x3) ![0, 0, 0] S8x512x3.size Facts₀.inb_S8x512x3_S8x512x3_0_0_0
abbrev rRow : Rect S8x512 := Rect.unit (s := S8x512) ![0, 0] S8x512.size Facts₀.inb_S8x512_S8x512_0_0
abbrev rAll : Rect S8x4096 := Rect.unit (s := S8x4096) ![0, 0] S8x4096.size Facts₀.inb_S8x4096_S8x4096_0_0
abbrev rCol (i : grid0.Coords) : Rect S8x4096 := Rect.unit (s := S8x4096) (k0_off1 i) S8x512.size (Facts₀.k0_off1_inb i)

/-- The condition of the third branch (first row tile and first column tile), as the body computes it. -/
abbrev cond3 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- The row minima of the current tile pair: what the body stores in the row buffer at a first column tile. -/
def rowFirst (x0 x1 : Vec F S8x512x3 .f32) : Vec F S8x512 .f32 :=
  k0_pay3 (View.ld x0 rIn) (View.ld x1 rIn)
/-- At a later column tile: the minimum of what the row buffer held and the tile pair's row minima. -/
def rowNext (x0 x1 : Vec F S8x512x3 .f32) (y : Vec F S8x512 .f32) : Vec F S8x512 .f32 :=
  k0_pay5 (View.ld x0 rIn) (View.ld x1 rIn) (View.ld y rRow)
/-- The column buffer after a point: on the current column tile's 512 columns the minimum of what it held there and
    the tile pair's column minima, elsewhere what it held. -/
def colStep (i : grid0.Coords) (x0 x1 : Vec F S8x512x3 .f32) (z : Vec F S8x4096 .f32) : Vec F S8x4096 .f32 :=
  (rCol i).overlay z (k0_pay1 (k0_pay4 (View.ld x0 rIn) (View.ld x1 rIn)) (k0_pay7 (View.ld z (rCol i))))

theorem off2 : (![0, 0] : Fin 2 → ℕ) = fun _ => 0 := funext fun a => by fin_cases a <;> rfl
theorem off3 : (![0, 0, 0] : Fin 3 → ℕ) = fun _ => 0 := funext fun a => by fin_cases a <;> rfl

/-- The newest store into a buffer leaves what the earlier ones left, overlaid with its payload on its rectangle. -/
theorem read_writes_overlay {κ : Kind} {sp : Space} {s : Shape} {e : EltTy} (v : View sig κ sp s e) (f : v.ty.Contents (Elt F))
    (r : Rect s) (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ := r.exists_idx_of_mem hy
    rw [show r.idx x = r.emb x from rfl, View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

/-- One store through the whole-buffer rectangle leaves its payload. -/
theorem read_writes_whole {κ : Kind} {sp : Space} {s : Shape} {e : EltTy} (v : View sig κ sp s e) (f : v.ty.Contents (Elt F))
    {off : Fin s.rank → ℕ} (h : off = fun _ => 0) (inb : ∀ a, off a + s.size a ≤ s.size a) (w : s.Idx → Elt F e) :
    v.read (Elt F) (v.writes (Elt F) f [(⟨Rect.unit off s.size inb, w⟩ : View.Piece (Elt F) s e)]) = w := by
  rw [View.read_writes_eq_canon _ _ _ (fun y => ⟨_, List.mem_singleton_self _, View.mem_set_unit_zero h inb y⟩),
    View.canon_unit_zero h]

/-! ## The body's triple, case by case

On whole staging memrefs, the inputs' at contents `x0`, `x1`: the body runs to the continuation holding the inputs'
as they were and the two output buffers at the step functions of what they held. Three cases of the branches meet
the grid: the first point; a later first column tile; a later column tile. -/

section Kernel

variable (c : Dev nD) (i : grid0.Coords)
  (arg2 : Memref sig .tc .vmem S8x512x3 .f32) (harg2 : arg2.IsWhole) (arg3 : Memref sig .tc .vmem S8x512x3 .f32) (harg3 : arg3.IsWhole)
  (arg4 : Memref sig .tc .vmem S8x512 .f32) (harg4 : arg4.IsWhole) (arg5 : Memref sig .tc .vmem S8x4096 .f32) (harg5 : arg5.IsWhole)
  (x0 x1 : Vec F S8x512x3 .f32)

/-- The first point: the row buffer is stored whole, the column buffer reset to +∞ and then updated on the first
    column tile. -/
theorem sound_first (hc1 : k0_cond1 i = 1#1) (hc2 : ¬ k0_cond2 i = 1#1) (hc3 : cond3 i) (K : PUnit → sProp 𝕄) :
    iprop(owns (c : Thread nD τ) arg2 fullShare x0 ∗ owns (c : Thread nD τ) arg3 fullShare x1
        ∗ (∃ y, owns (c : Thread nD τ) arg4 fullShare y) ∗ (∃ z, owns (c : Thread nD τ) arg5 fullShare z)
        ∗ (iprop(owns (c : Thread nD τ) arg2 fullShare x0 ∗ owns (c : Thread nD τ) arg3 fullShare x1
            ∗ owns (c : Thread nD τ) arg4 fullShare (rowFirst x0 x1)
            ∗ owns (c : Thread nD τ) arg5 fullShare (colStep i x0 x1 (k0_pay6 (F := F)))) -∗ K ⟨⟩))
      ⊢ wp frame (wpE (defs₀ (F := F)) Variants.none c none) Set.univ (cc0__chamfer_kernel i arg2 harg2 arg3 harg3 arg4 harg4 arg5 harg5) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%y, %f2, -, H2⟩, ⟨%z, %f3, -, H3⟩, Hk⟩
  subst hf0 hf1
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_writes_whole _ _ off2]; rfl
  iexists _; isplitr
  swap; · iexact H3
  ipureintro
  sl_unfold_words
  rw [read_writes_overlay]
  simp only [View.readAt_eq_ld]
  rw [read_writes_whole arg5.view arg5.view.junk off2 Facts₀.inb_S8x4096_S8x4096_0_0 (k0_pay6 (F := F))]
  unfold colStep
  rfl

/-- A later first column tile: the row buffer is stored whole, the column buffer updated on the first column tile. -/
theorem sound_rowstart (hc1 : k0_cond1 i = 1#1) (hc2 : ¬ k0_cond2 i = 1#1) (hc3 : ¬ cond3 i) (z : Vec F S8x4096 .f32) (K : PUnit → sProp 𝕄) :
    iprop(owns (c : Thread nD τ) arg2 fullShare x0 ∗ owns (c : Thread nD τ) arg3 fullShare x1
        ∗ (∃ y, owns (c : Thread nD τ) arg4 fullShare y) ∗ owns (c : Thread nD τ) arg5 fullShare z
        ∗ (iprop(owns (c : Thread nD τ) arg2 fullShare x0 ∗ owns (c : Thread nD τ) arg3 fullShare x1
            ∗ owns (c : Thread nD τ) arg4 fullShare (rowFirst x0 x1)
            ∗ owns (c : Thread nD τ) arg5 fullShare (colStep i x0 x1 z)) -∗ K ⟨⟩))
      ⊢ wp frame (wpE (defs₀ (F := F)) Variants.none c none) Set.univ (cc0__chamfer_kernel i arg2 harg2 arg3 harg3 arg4 harg4 arg5 harg5) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%y, %f2, -, H2⟩, ⟨%f3, %hf3, H3⟩, Hk⟩
  subst hf0 hf1 hf3
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_writes_whole _ _ off2]; rfl
  iexists _; isplitr
  swap; · iexact H3
  ipureintro
  rw [read_writes_overlay]
  dsimp only
  unfold colStep
  rfl

/-- A later column tile: the row buffer takes the minimum with what it held, the column buffer is updated on the
    current column tile. -/
theorem sound_later (hc1 : ¬ k0_cond1 i = 1#1) (hc2 : k0_cond2 i = 1#1) (hc3 : ¬ cond3 i) (y : Vec F S8x512 .f32) (z : Vec F S8x4096 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare z
        ∗ (iprop(owns (c : Thread nD τ) arg2 fullShare x0 ∗ owns (c : Thread nD τ) arg3 fullShare x1
            ∗ owns (c : Thread nD τ) arg4 fullShare (rowNext x0 x1 y)
            ∗ owns (c : Thread nD τ) arg5 fullShare (colStep i x0 x1 z)) -∗ K ⟨⟩))
      ⊢ wp frame (wpE (defs₀ (F := F)) Variants.none c none) Set.univ (cc0__chamfer_kernel i arg2 harg2 arg3 harg3 arg4 harg4 arg5 harg5) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_writes_whole _ _ off2]; rfl
  iexists _; isplitr
  swap; · iexact H3
  ipureintro
  rw [read_writes_overlay]
  dsimp only
  unfold colStep
  rfl

end Kernel

/-! ## The branches over the grid, and where the row window is live -/

theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
theorem hcond3 : ∀ t : Fin cfg0.N, cond3 (grid0.coords t) ↔ t.val = 0 :=
  (by decide +kernel : ∀ t : Fin grid0.N, cond3 (grid0.coords t) ↔ t.val = 0)
/-- One of the two row-buffer branches is taken at every point: the row window is never idle on the grid. -/
theorem live2 : ∀ t : Fin cfg0.N, cfg0.idle 2 (grid0.coords t) = false :=
  (by decide +kernel : ∀ t : Fin grid0.N, cfg0.idle 2 (grid0.coords t) = false)

/-! ## What the output buffers hold after each point -/

variable (m : (ℓ : Loc nD τ sig) → Buf (Elt F) ℓ) (ρ : Dev nD → PrngReg)

/-- The two input blocks at a point, at their literal types. -/
abbrev gblk (c : Dev nD) (t : Fin cfg0.N) : Vec F S8x512x3 .f32 := iblk m c 0 t
abbrev pblk (c : Dev nD) (t : Fin cfg0.N) : Vec F S8x512x3 .f32 := iblk m c 1 t

/-- THE ACCUMULATION: the row buffer and the column buffer after the body at position `n`. The row buffer restarts at
    each first column tile and otherwise takes the minimum with what the point before left; the column buffer starts
    from +∞ at the first point and is updated, on the current column tile, over what the point before left. -/
def accAt (c : Dev nD) : (n : ℕ) → n < cfg0.N → Vec F S8x512 .f32 × Vec F S8x4096 .f32
  | 0, hn => (rowFirst (gblk m c ⟨0, hn⟩) (pblk m c ⟨0, hn⟩),
      colStep (grid0.coords ⟨0, hn⟩) (gblk m c ⟨0, hn⟩) (pblk m c ⟨0, hn⟩) (k0_pay6 (F := F)))
  | n + 1, hn =>
    if (n + 1) % 8 = 0 then
      (rowFirst (gblk m c ⟨n + 1, hn⟩) (pblk m c ⟨n + 1, hn⟩),
        colStep (grid0.coords ⟨n + 1, hn⟩) (gblk m c ⟨n + 1, hn⟩) (pblk m c ⟨n + 1, hn⟩) (accAt c n (Nat.lt_of_succ_lt hn)).2)
    else
      (rowNext (gblk m c ⟨n + 1, hn⟩) (pblk m c ⟨n + 1, hn⟩) (accAt c n (Nat.lt_of_succ_lt hn)).1,
        colStep (grid0.coords ⟨n + 1, hn⟩) (gblk m c ⟨n + 1, hn⟩) (pblk m c ⟨n + 1, hn⟩) (accAt c n (Nat.lt_of_succ_lt hn)).2)

theorem accAt_first (c : Dev nD) (t : Fin cfg0.N) (hz : t.val = 0) :
    accAt m c t.val t.isLt = (rowFirst (gblk m c t) (pblk m c t), colStep (grid0.coords t) (gblk m c t) (pblk m c t) (k0_pay6 (F := F))) := by
  obtain ⟨n, hn⟩ := t
  cases n with
  | zero => rfl
  | succ n => exact absurd hz (Nat.succ_ne_zero n)

theorem accAt_rowstart (c : Dev nD) (t : Fin cfg0.N) (hz : t.val ≠ 0) (h0 : t.val % 8 = 0) :
    accAt m c t.val t.isLt = (rowFirst (gblk m c t) (pblk m c t),
      colStep (grid0.coords t) (gblk m c t) (pblk m c t) (accAt m c (t.val - 1) (Nat.lt_of_le_of_lt (Nat.sub_le _ _) t.isLt)).2) := by
  obtain ⟨n, hn⟩ := t
  cases n with
  | zero => exact absurd rfl hz
  | succ n => exact (if_pos h0).trans rfl

theorem accAt_later (c : Dev nD) (t : Fin cfg0.N) (h0 : ¬ t.val % 8 = 0) :
    accAt m c t.val t.isLt = (rowNext (gblk m c t) (pblk m c t) (accAt m c (t.val - 1) (Nat.lt_of_le_of_lt (Nat.sub_le _ _) t.isLt)).1,
      colStep (grid0.coords t) (gblk m c t) (pblk m c t) (accAt m c (t.val - 1) (Nat.lt_of_le_of_lt (Nat.sub_le _ _) t.isLt)).2) := by
  obtain ⟨n, hn⟩ := t
  cases n with
  | zero => exact absurd (Nat.zero_mod 8) h0
  | succ n => exact (if_neg h0).trans rfl

/-! ## The pipeline's proof data -/

/-- The proof data of the one pipeline on core `c`: the arrays as the region finds them; after the body at point `t`
    each input's buffer at its block and the two outputs' at the accumulation; the invariant the launch's own
    (nothing is kept outside the windows); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (accAt m c t.val t.isLt).1
    | ⟨3, _⟩ => (accAt m c t.val t.isLt).2
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (accAt m c t.val t.isLt).1 := by dsimp only [dats]
theorem after0_3 (c : Dev nD) (t : Fin cfg0.N) : (dats m 0 c).after 3 t = (accAt m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The row buffer at a later column tile holds what the point before left: that point did not write the block back
    (it is not a last column tile) and stored into it. -/
theorem before0_2_later (c : Dev nD) (t : Fin cfg0.N) (h0 : ¬ t.val % 8 = 0) (d) :
    (dats m 0 c).before 2 t d = (accAt m c (t.val - 1) (Nat.lt_of_le_of_lt (Nat.sub_le _ _) t.isLt)).1 := by
  have ht : t.val ≠ 0 := fun h => h0 (by rw [h])
  have hfl : (cfg0.win 2).flush ⟨t.val - 1, Nat.lt_of_le_of_lt (Nat.sub_le _ _) t.isLt⟩ = false := by
    cases hf : (cfg0.win 2).flush ⟨t.val - 1, Nat.lt_of_le_of_lt (Nat.sub_le _ _) t.isLt⟩ with
    | false => rfl
    | true => exfalso; have := (flush0_2 _).mp hf; dsimp only at this; omega
  rw [(dats m 0 c).before_of_pos 2 t ht ((cfg0.win 2).fetch_out rfl t) d, hfl, if_neg Bool.false_ne_true]
  unfold Dat.left
  rw [live2 ⟨t.val - 1, Nat.lt_of_le_of_lt (Nat.sub_le _ _) t.isLt⟩]
  dsimp only
  unfold Dat.kept
  rw [Pipeline.fill_of_clip_none (cfg := cfg0) 2 _ (fun _ => rfl) d ((dats m 0 c).after 2 _), Window.fill_cut, after0_2]

/-- The column buffer after the first point holds what the point before left: it is written back at the last point only. -/
theorem before0_3_later (c : Dev nD) (t : Fin cfg0.N) (ht : t.val ≠ 0) (d) :
    (dats m 0 c).before 3 t d = (accAt m c (t.val - 1) (Nat.lt_of_le_of_lt (Nat.sub_le _ _) t.isLt)).2 := by
  have hfl : (cfg0.win 3).flush ⟨t.val - 1, Nat.lt_of_le_of_lt (Nat.sub_le _ _) t.isLt⟩ = false := by
    cases hf : (cfg0.win 3).flush ⟨t.val - 1, Nat.lt_of_le_of_lt (Nat.sub_le _ _) t.isLt⟩ with
    | false => rfl
    | true =>
      exfalso; have := (flush0_3 _).mp hf; dsimp only at this
      have hN : t.val < 64 := lt_of_lt_of_eq t.isLt (show cfg0.N = 64 from N_0); omega
  rw [(dats m 0 c).before_out_kept 3 rfl t ht hfl (fun _ => rfl) (fun _ _ => rfl) d, after0_3]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (st0_0 t) fullShare (iblk m c 0 t) := by
  rw [← after0_0 m c t]
theorem leaves1 (c : Dev nD) (t : Fin cfg0.N) :
    (dats m 0 c).leavesExact 1 t = owns (c : Thread nD τ) (st0_1 t) fullShare (iblk m c 1 t) := by
  rw [← after0_1 m c t]
theorem leaves2 (c : Dev nD) (t : Fin cfg0.N) :
    (dats m 0 c).leavesExact 2 t = owns (c : Thread nD τ) (st0_2 t) fullShare (accAt m c t.val t.isLt).1 := by
  rw [← after0_2 m c t]; unfold Dat.leavesExact; rw [live2 t]
theorem leaves3 (c : Dev nD) (t : Fin cfg0.N) :
    (dats m 0 c).leavesExact 3 t = owns (c : Thread nD τ) (st0_3 t) fullShare (accAt m c t.val t.isLt).2 := by
  rw [← after0_3 m c t]

/-- The body at any point: the inputs' memrefs hold their blocks; the closed forms of the branches say which case the
    point is in; a buffer the case reads before covering holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    leaves0, leaves1, leaves2, leaves3]
  by_cases h0 : t.val % 8 = 0
  · by_cases hz : t.val = 0
    · rw [accAt_first m c t hz]
      iintro ⟨HΦ, Ho, ⟨%d0, H0⟩, ⟨%d1, H1⟩, ⟨%d2, H2⟩, ⟨%d3, H3⟩⟩
      iapply (sound_first c (grid0.coords t) _ _ _ _ _ _ _ _ (iblk m c 0 t) (iblk m c 1 t)
        ((hcond1 t).mpr h0) (fun h => (hcond2 t).mp h h0) ((hcond3 t).mpr hz) _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [accAt_rowstart m c t hz h0]
      simp only [before0_3_later m c t hz]
      iintro ⟨HΦ, Ho, ⟨%d0, H0⟩, ⟨%d1, H1⟩, ⟨%d2, H2⟩, ⟨%d3, H3⟩⟩
      iapply (sound_rowstart c (grid0.coords t) _ _ _ _ _ _ _ _ (iblk m c 0 t) (iblk m c 1 t)
        ((hcond1 t).mpr h0) (fun h => (hcond2 t).mp h h0) (fun h => hz ((hcond3 t).mp h)) _ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · have hz : t.val ≠ 0 := fun h => h0 (by rw [h])
    rw [accAt_later m c t h0]
    simp only [before0_3_later m c t hz, before0_2_later m c t h0]
    iintro ⟨HΦ, Ho, ⟨%d0, H0⟩, ⟨%d1, H1⟩, ⟨%d2, H2⟩, ⟨%d3, H3⟩⟩
    iapply (sound_later c (grid0.coords t) _ _ _ _ _ _ _ _ (iblk m c 0 t) (iblk m c 1 t)
      (fun h => h0 ((hcond1 t).mp h)) ((hcond2 t).mpr h0) (fun h => hz ((hcond3 t).mp h)) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    ending at what the library computes from the proof data and every other unscoped buffer as the lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Proof.K

end
-- ==== Proof.KI.Body.lean ====
/-
  The frame of the kernel program, for every float instance.

  The kernel walks an 8 × 8 grid of (row tile i, column tile j) over the 4096 × 4096 table of squared distances
  P[b, n, m] between the transformed points and the reconstructed points, 512 rows by 512 columns at a point, all 8
  batches at once. It keeps two running minima in its output buffers across grid points:
    * the row buffer (8 × 512), indexed by the row tile only: stored whole at a first column tile (j = 0), and at a
      later column tile replaced by the minimum of what it held and the tile's row minima; written back after j = 7;
    * the column buffer (8 × 4096), one block for the whole grid: reset to +∞ at the very first point, then at every
      point updated on the 512 columns of the current column tile by the minimum with the tile's column minima; written
      back once, after the last point.
  Below: the step functions of the two buffers, the body's triple in each of the three cases of its branches that
  the grid meets, what the buffers hold after each point (a recursion on the point), the pipeline's proof data, the
  body obligation, the run and the frame.
-/
import proofs.«102629_j8830452761307_1_alg».proof.Proof.Gen.KernelIdeal.Frame
import proofs.«102629_j8830452761307_1_alg».proof.Proof.Gen.KernelIdeal.Skeleton
import Idealize.ShloMosaic.Lib.Pipeline.Value
import Idealize.ShloMosaic.Lib.Writes

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.KernelIdeal.Facts₀

variable {F : FTy → Type} [FloatOps F]
local notation "𝕄" => MT nD τ sig Unit (Elt F) ℕ (UR sig nD τ) ℕ

/-! ## Rectangles and the pure step functions

The body reads its two input blocks whole, and keeps two running minima in its output buffers: the row buffer
(one value per row of the current row tile, over the column tiles seen so far) and the column buffer (one value per
column of the whole array, over the row tiles seen so far). -/

abbrev rIn : Rect S8x512x3 := Rect.unit (s := S8x512x3) ![0, 0, 0] S8x512x3.size Facts₀.inb_S8x512x3_S8x512x3_0_0_0
abbrev rRow : Rect S8x512 := Rect.unit (s := S8x512) ![0, 0] S8x512.size Facts₀.inb_S8x512_S8x512_0_0
abbrev rAll : Rect S8x4096 := Rect.unit (s := S8x4096) ![0, 0] S8x4096.size Facts₀.inb_S8x4096_S8x4096_0_0
abbrev rCol (i : grid0.Coords) : Rect S8x4096 := Rect.unit (s := S8x4096) (k0_off1 i) S8x512.size (Facts₀.k0_off1_inb i)

/-- The condition of the third branch (first row tile and first column tile), as the body computes it. -/
abbrev cond3 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- The row minima of the current tile pair: what the body stores in the row buffer at a first column tile. -/
def rowFirst (x0 x1 : Vec F S8x512x3 .f32) : Vec F S8x512 .f32 :=
  k0_pay3 (View.ld x0 rIn) (View.ld x1 rIn)
/-- At a later column tile: the minimum of what the row buffer held and the tile pair's row minima. -/
def rowNext (x0 x1 : Vec F S8x512x3 .f32) (y : Vec F S8x512 .f32) : Vec F S8x512 .f32 :=
  k0_pay5 (View.ld x0 rIn) (View.ld x1 rIn) (View.ld y rRow)
/-- The column buffer after a point: on the current column tile's 512 columns the minimum of what it held there and
    the tile pair's column minima, elsewhere what it held. -/
def colStep (i : grid0.Coords) (x0 x1 : Vec F S8x512x3 .f32) (z : Vec F S8x4096 .f32) : Vec F S8x4096 .f32 :=
  (rCol i).overlay z (k0_pay1 (k0_pay4 (View.ld x0 rIn) (View.ld x1 rIn)) (k0_pay7 (View.ld z (rCol i))))

theorem off2 : (![0, 0] : Fin 2 → ℕ) = fun _ => 0 := funext fun a => by fin_cases a <;> rfl
theorem off3 : (![0, 0, 0] : Fin 3 → ℕ) = fun _ => 0 := funext fun a => by fin_cases a <;> rfl

/-- The newest store into a buffer leaves what the earlier ones left, overlaid with its payload on its rectangle. -/
theorem read_writes_overlay {κ : Kind} {sp : Space} {s : Shape} {e : EltTy} (v : View sig κ sp s e) (f : v.ty.Contents (Elt F))
    (r : Rect s) (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ := r.exists_idx_of_mem hy
    rw [show r.idx x = r.emb x from rfl, View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

/-- One store through the whole-buffer rectangle leaves its payload. -/
theorem read_writes_whole {κ : Kind} {sp : Space} {s : Shape} {e : EltTy} (v : View sig κ sp s e) (f : v.ty.Contents (Elt F))
    {off : Fin s.rank → ℕ} (h : off = fun _ => 0) (inb : ∀ a, off a + s.size a ≤ s.size a) (w : s.Idx → Elt F e) :
    v.read (Elt F) (v.writes (Elt F) f [(⟨Rect.unit off s.size inb, w⟩ : View.Piece (Elt F) s e)]) = w := by
  rw [View.read_writes_eq_canon _ _ _ (fun y => ⟨_, List.mem_singleton_self _, View.mem_set_unit_zero h inb y⟩),
    View.canon_unit_zero h]

/-! ## The body's triple, case by case

On whole staging memrefs, the inputs' at contents `x0`, `x1`: the body runs to the continuation holding the inputs'
as they were and the two output buffers at the step functions of what they held. Three cases of the branches meet
the grid: the first point; a later first column tile; a later column tile. -/

section Kernel

variable (c : Dev nD) (i : grid0.Coords)
  (arg2 : Memref sig .tc .vmem S8x512x3 .f32) (harg2 : arg2.IsWhole) (arg3 : Memref sig .tc .vmem S8x512x3 .f32) (harg3 : arg3.IsWhole)
  (arg4 : Memref sig .tc .vmem S8x512 .f32) (harg4 : arg4.IsWhole) (arg5 : Memref sig .tc .vmem S8x4096 .f32) (harg5 : arg5.IsWhole)
  (x0 x1 : Vec F S8x512x3 .f32)

/-- The first point: the row buffer is stored whole, the column buffer reset to +∞ and then updated on the first
    column tile. -/
theorem sound_first (hc1 : k0_cond1 i = 1#1) (hc2 : ¬ k0_cond2 i = 1#1) (hc3 : cond3 i) (K : PUnit → sProp 𝕄) :
    iprop(owns (c : Thread nD τ) arg2 fullShare x0 ∗ owns (c : Thread nD τ) arg3 fullShare x1
        ∗ (∃ y, owns (c : Thread nD τ) arg4 fullShare y) ∗ (∃ z, owns (c : Thread nD τ) arg5 fullShare z)
        ∗ (iprop(owns (c : Thread nD τ) arg2 fullShare x0 ∗ owns (c : Thread nD τ) arg3 fullShare x1
            ∗ owns (c : Thread nD τ) arg4 fullShare (rowFirst x0 x1)
            ∗ owns (c : Thread nD τ) arg5 fullShare (colStep i x0 x1 (k0_pay6 (F := F)))) -∗ K ⟨⟩))
      ⊢ wp frame (wpE (defs₀ (F := F)) Variants.none c none) Set.univ (cc0__chamfer_kernel i arg2 harg2 arg3 harg3 arg4 harg4 arg5 harg5) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%y, %f2, -, H2⟩, ⟨%z, %f3, -, H3⟩, Hk⟩
  subst hf0 hf1
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_writes_whole _ _ off2]; rfl
  iexists _; isplitr
  swap; · iexact H3
  ipureintro
  sl_unfold_words
  rw [read_writes_overlay]
  simp only [View.readAt_eq_ld]
  rw [read_writes_whole arg5.view arg5.view.junk off2 Facts₀.inb_S8x4096_S8x4096_0_0 (k0_pay6 (F := F))]
  unfold colStep
  rfl

/-- A later first column tile: the row buffer is stored whole, the column buffer updated on the first column tile. -/
theorem sound_rowstart (hc1 : k0_cond1 i = 1#1) (hc2 : ¬ k0_cond2 i = 1#1) (hc3 : ¬ cond3 i) (z : Vec F S8x4096 .f32) (K : PUnit → sProp 𝕄) :
    iprop(owns (c : Thread nD τ) arg2 fullShare x0 ∗ owns (c : Thread nD τ) arg3 fullShare x1
        ∗ (∃ y, owns (c : Thread nD τ) arg4 fullShare y) ∗ owns (c : Thread nD τ) arg5 fullShare z
        ∗ (iprop(owns (c : Thread nD τ) arg2 fullShare x0 ∗ owns (c : Thread nD τ) arg3 fullShare x1
            ∗ owns (c : Thread nD τ) arg4 fullShare (rowFirst x0 x1)
            ∗ owns (c : Thread nD τ) arg5 fullShare (colStep i x0 x1 z)) -∗ K ⟨⟩))
      ⊢ wp frame (wpE (defs₀ (F := F)) Variants.none c none) Set.univ (cc0__chamfer_kernel i arg2 harg2 arg3 harg3 arg4 harg4 arg5 harg5) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%y, %f2, -, H2⟩, ⟨%f3, %hf3, H3⟩, Hk⟩
  subst hf0 hf1 hf3
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_writes_whole _ _ off2]; rfl
  iexists _; isplitr
  swap; · iexact H3
  ipureintro
  rw [read_writes_overlay]
  dsimp only
  unfold colStep
  rfl

/-- A later column tile: the row buffer takes the minimum with what it held, the column buffer is updated on the
    current column tile. -/
theorem sound_later (hc1 : ¬ k0_cond1 i = 1#1) (hc2 : k0_cond2 i = 1#1) (hc3 : ¬ cond3 i) (y : Vec F S8x512 .f32) (z : Vec F S8x4096 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare z
        ∗ (iprop(owns (c : Thread nD τ) arg2 fullShare x0 ∗ owns (c : Thread nD τ) arg3 fullShare x1
            ∗ owns (c : Thread nD τ) arg4 fullShare (rowNext x0 x1 y)
            ∗ owns (c : Thread nD τ) arg5 fullShare (colStep i x0 x1 z)) -∗ K ⟨⟩))
      ⊢ wp frame (wpE (defs₀ (F := F)) Variants.none c none) Set.univ (cc0__chamfer_kernel i arg2 harg2 arg3 harg3 arg4 harg4 arg5 harg5) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_writes_whole _ _ off2]; rfl
  iexists _; isplitr
  swap; · iexact H3
  ipureintro
  rw [read_writes_overlay]
  dsimp only
  unfold colStep
  rfl

end Kernel

/-! ## The branches over the grid, and where the row window is live -/

theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
theorem hcond3 : ∀ t : Fin cfg0.N, cond3 (grid0.coords t) ↔ t.val = 0 :=
  (by decide +kernel : ∀ t : Fin grid0.N, cond3 (grid0.coords t) ↔ t.val = 0)
/-- One of the two row-buffer branches is taken at every point: the row window is never idle on the grid. -/
theorem live2 : ∀ t : Fin cfg0.N, cfg0.idle 2 (grid0.coords t) = false :=
  (by decide +kernel : ∀ t : Fin grid0.N, cfg0.idle 2 (grid0.coords t) = false)

/-! ## What the output buffers hold after each point -/

variable (m : (ℓ : Loc nD τ sig) → Buf (Elt F) ℓ) (ρ : Dev nD → PrngReg)

/-- The two input blocks at a point, at their literal types. -/
abbrev gblk (c : Dev nD) (t : Fin cfg0.N) : Vec F S8x512x3 .f32 := iblk m c 0 t
abbrev pblk (c : Dev nD) (t : Fin cfg0.N) : Vec F S8x512x3 .f32 := iblk m c 1 t

/-- THE ACCUMULATION: the row buffer and the column buffer after the body at position `n`. The row buffer restarts at
    each first column tile and otherwise takes the minimum with what the point before left; the column buffer starts
    from +∞ at the first point and is updated, on the current column tile, over what the point before left. -/
def accAt (c : Dev nD) : (n : ℕ) → n < cfg0.N → Vec F S8x512 .f32 × Vec F S8x4096 .f32
  | 0, hn => (rowFirst (gblk m c ⟨0, hn⟩) (pblk m c ⟨0, hn⟩),
      colStep (grid0.coords ⟨0, hn⟩) (gblk m c ⟨0, hn⟩) (pblk m c ⟨0, hn⟩) (k0_pay6 (F := F)))
  | n + 1, hn =>
    if (n + 1) % 8 = 0 then
      (rowFirst (gblk m c ⟨n + 1, hn⟩) (pblk m c ⟨n + 1, hn⟩),
        colStep (grid0.coords ⟨n + 1, hn⟩) (gblk m c ⟨n + 1, hn⟩) (pblk m c ⟨n + 1, hn⟩) (accAt c n (Nat.lt_of_succ_lt hn)).2)
    else
      (rowNext (gblk m c ⟨n + 1, hn⟩) (pblk m c ⟨n + 1, hn⟩) (accAt c n (Nat.lt_of_succ_lt hn)).1,
        colStep (grid0.coords ⟨n + 1, hn⟩) (gblk m c ⟨n + 1, hn⟩) (pblk m c ⟨n + 1, hn⟩) (accAt c n (Nat.lt_of_succ_lt hn)).2)

theorem accAt_first (c : Dev nD) (t : Fin cfg0.N) (hz : t.val = 0) :
    accAt m c t.val t.isLt = (rowFirst (gblk m c t) (pblk m c t), colStep (grid0.coords t) (gblk m c t) (pblk m c t) (k0_pay6 (F := F))) := by
  obtain ⟨n, hn⟩ := t
  cases n with
  | zero => rfl
  | succ n => exact absurd hz (Nat.succ_ne_zero n)

theorem accAt_rowstart (c : Dev nD) (t : Fin cfg0.N) (hz : t.val ≠ 0) (h0 : t.val % 8 = 0) :
    accAt m c t.val t.isLt = (rowFirst (gblk m c t) (pblk m c t),
      colStep (grid0.coords t) (gblk m c t) (pblk m c t) (accAt m c (t.val - 1) (Nat.lt_of_le_of_lt (Nat.sub_le _ _) t.isLt)).2) := by
  obtain ⟨n, hn⟩ := t
  cases n with
  | zero => exact absurd rfl hz
  | succ n => exact (if_pos h0).trans rfl

theorem accAt_later (c : Dev nD) (t : Fin cfg0.N) (h0 : ¬ t.val % 8 = 0) :
    accAt m c t.val t.isLt = (rowNext (gblk m c t) (pblk m c t) (accAt m c (t.val - 1) (Nat.lt_of_le_of_lt (Nat.sub_le _ _) t.isLt)).1,
      colStep (grid0.coords t) (gblk m c t) (pblk m c t) (accAt m c (t.val - 1) (Nat.lt_of_le_of_lt (Nat.sub_le _ _) t.isLt)).2) := by
  obtain ⟨n, hn⟩ := t
  cases n with
  | zero => exact absurd (Nat.zero_mod 8) h0
  | succ n => exact (if_neg h0).trans rfl

/-! ## The pipeline's proof data -/

/-- The proof data of the one pipeline on core `c`: the arrays as the region finds them; after the body at point `t`
    each input's buffer at its block and the two outputs' at the accumulation; the invariant the launch's own
    (nothing is kept outside the windows); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (accAt m c t.val t.isLt).1
    | ⟨3, _⟩ => (accAt m c t.val t.isLt).2
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (accAt m c t.val t.isLt).1 := by dsimp only [dats]
theorem after0_3 (c : Dev nD) (t : Fin cfg0.N) : (dats m 0 c).after 3 t = (accAt m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The row buffer at a later column tile holds what the point before left: that point did not write the block back
    (it is not a last column tile) and stored into it. -/
theorem before0_2_later (c : Dev nD) (t : Fin cfg0.N) (h0 : ¬ t.val % 8 = 0) (d) :
    (dats m 0 c).before 2 t d = (accAt m c (t.val - 1) (Nat.lt_of_le_of_lt (Nat.sub_le _ _) t.isLt)).1 := by
  have ht : t.val ≠ 0 := fun h => h0 (by rw [h])
  have hfl : (cfg0.win 2).flush ⟨t.val - 1, Nat.lt_of_le_of_lt (Nat.sub_le _ _) t.isLt⟩ = false := by
    cases hf : (cfg0.win 2).flush ⟨t.val - 1, Nat.lt_of_le_of_lt (Nat.sub_le _ _) t.isLt⟩ with
    | false => rfl
    | true => exfalso; have := (flush0_2 _).mp hf; dsimp only at this; omega
  rw [(dats m 0 c).before_of_pos 2 t ht ((cfg0.win 2).fetch_out rfl t) d, hfl, if_neg Bool.false_ne_true]
  unfold Dat.left
  rw [live2 ⟨t.val - 1, Nat.lt_of_le_of_lt (Nat.sub_le _ _) t.isLt⟩]
  dsimp only
  unfold Dat.kept
  rw [Pipeline.fill_of_clip_none (cfg := cfg0) 2 _ (fun _ => rfl) d ((dats m 0 c).after 2 _), Window.fill_cut, after0_2]

/-- The column buffer after the first point holds what the point before left: it is written back at the last point only. -/
theorem before0_3_later (c : Dev nD) (t : Fin cfg0.N) (ht : t.val ≠ 0) (d) :
    (dats m 0 c).before 3 t d = (accAt m c (t.val - 1) (Nat.lt_of_le_of_lt (Nat.sub_le _ _) t.isLt)).2 := by
  have hfl : (cfg0.win 3).flush ⟨t.val - 1, Nat.lt_of_le_of_lt (Nat.sub_le _ _) t.isLt⟩ = false := by
    cases hf : (cfg0.win 3).flush ⟨t.val - 1, Nat.lt_of_le_of_lt (Nat.sub_le _ _) t.isLt⟩ with
    | false => rfl
    | true =>
      exfalso; have := (flush0_3 _).mp hf; dsimp only at this
      have hN : t.val < 64 := lt_of_lt_of_eq t.isLt (show cfg0.N = 64 from N_0); omega
  rw [(dats m 0 c).before_out_kept 3 rfl t ht hfl (fun _ => rfl) (fun _ _ => rfl) d, after0_3]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (st0_0 t) fullShare (iblk m c 0 t) := by
  rw [← after0_0 m c t]
theorem leaves1 (c : Dev nD) (t : Fin cfg0.N) :
    (dats m 0 c).leavesExact 1 t = owns (c : Thread nD τ) (st0_1 t) fullShare (iblk m c 1 t) := by
  rw [← after0_1 m c t]
theorem leaves2 (c : Dev nD) (t : Fin cfg0.N) :
    (dats m 0 c).leavesExact 2 t = owns (c : Thread nD τ) (st0_2 t) fullShare (accAt m c t.val t.isLt).1 := by
  rw [← after0_2 m c t]; unfold Dat.leavesExact; rw [live2 t]
theorem leaves3 (c : Dev nD) (t : Fin cfg0.N) :
    (dats m 0 c).leavesExact 3 t = owns (c : Thread nD τ) (st0_3 t) fullShare (accAt m c t.val t.isLt).2 := by
  rw [← after0_3 m c t]

/-- The body at any point: the inputs' memrefs hold their blocks; the closed forms of the branches say which case the
    point is in; a buffer the case reads before covering holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    leaves0, leaves1, leaves2, leaves3]
  by_cases h0 : t.val % 8 = 0
  · by_cases hz : t.val = 0
    · rw [accAt_first m c t hz]
      iintro ⟨HΦ, Ho, ⟨%d0, H0⟩, ⟨%d1, H1⟩, ⟨%d2, H2⟩, ⟨%d3, H3⟩⟩
      iapply (sound_first c (grid0.coords t) _ _ _ _ _ _ _ _ (iblk m c 0 t) (iblk m c 1 t)
        ((hcond1 t).mpr h0) (fun h => (hcond2 t).mp h h0) ((hcond3 t).mpr hz) _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [accAt_rowstart m c t hz h0]
      simp only [before0_3_later m c t hz]
      iintro ⟨HΦ, Ho, ⟨%d0, H0⟩, ⟨%d1, H1⟩, ⟨%d2, H2⟩, ⟨%d3, H3⟩⟩
      iapply (sound_rowstart c (grid0.coords t) _ _ _ _ _ _ _ _ (iblk m c 0 t) (iblk m c 1 t)
        ((hcond1 t).mpr h0) (fun h => (hcond2 t).mp h h0) (fun h => hz ((hcond3 t).mp h)) _ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · have hz : t.val ≠ 0 := fun h => h0 (by rw [h])
    rw [accAt_later m c t h0]
    simp only [before0_3_later m c t hz, before0_2_later m c t h0]
    iintro ⟨HΦ, Ho, ⟨%d0, H0⟩, ⟨%d1, H1⟩, ⟨%d2, H2⟩, ⟨%d3, H3⟩⟩
    iapply (sound_later c (grid0.coords t) _ _ _ _ _ _ _ _ (iblk m c 0 t) (iblk m c 1 t)
      (fun h => h0 ((hcond1 t).mp h)) ((hcond2 t).mpr h0) (fun h => hz ((hcond3 t).mp h)) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    ending at what the library computes from the proof data and every other unscoped buffer as the lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Proof.KI

end
-- ==== Proof.ChamferSpec.lean ====
/-
  The mathematics both programs compute, over the extended reals.

  For two points u, v with three coordinates the squared distance is expanded as
      dist u v = (|u|² + |v|²) − two · ⟨u, v⟩,
  each of |u|², |v|², ⟨u, v⟩ a sum over the three coordinates ("two" is the value of the float literal 2.0, the same
  word in both programs, kept as a parameter). Both programs take, for every batch, the minimum of dist over one point
  set for each point of the other, and add all these minima up.
  A minimum over a finite family is carried by its universal property: c ≤ min ↔ c ≤ every member.
-/
import Idealize.ShloMosaic.PureOps.Ideal.Laws
import Idealize.ShloMosaic.Lib.ValueIdx

noncomputable section

namespace Cert.Spec

open Idealize.ShloMosaic

/-- The value of the float literal 2.0 that both programs multiply the inner product by: the same word in both, never
    evaluated. -/
abbrev two : EReal := Ideal.ofBits .f32 0x40000000#32

/-- |u|²: the sum of the squares of the three coordinates. -/
def sq3 (u : Fin 3 → EReal) : EReal := ∑ k : Fin 3, u k * u k
/-- ⟨u, v⟩: the sum of the products of the coordinates. -/
def dot3 (u v : Fin 3 → EReal) : EReal := ∑ k : Fin 3, u k * v k
/-- The expanded squared distance, with the literal `two`. -/
def dist (two : EReal) (u v : Fin 3 → EReal) : EReal := (sq3 u + sq3 v) - two * dot3 u v

/-- A fold of `min` from +∞ over a whole finite index type, by its universal property. -/
theorem le_fold_min_top {ι : Type} [Fintype ι] (f : ι → EReal) (c : EReal) :
    c ≤ (Finset.univ : Finset ι).fold min ⊤ f ↔ ∀ i, c ≤ f i := by
  rw [Finset.le_fold_min]
  exact ⟨fun h i => h.2 i (Finset.mem_univ i), fun h => ⟨le_top, fun i _ => h i⟩⟩

/-- Two extended reals with the same lower bounds are equal. -/
theorem eq_of_le_iff {a b : EReal} (h : ∀ c : EReal, c ≤ a ↔ c ≤ b) : a = b :=
  le_antisymm ((h a).mp le_rfl) ((h b).mpr le_rfl)

end Cert.Spec

end
-- ==== Proof.LibTileOps.lean ====
/-
  General readings, at an index, of operations a tiled reduction kernel is made of — nothing here mentions a program.

  * The two "keepdims" forms of an [a, b] array: cast to [a, b, 1] and broadcast along a new last axis (a column
    vector per row), or cast to [a, 1, b] and broadcast along a new middle axis (a row vector per row); each step
    reads one element of its operand.
  * A vector minimum-reduction over one axis at the extended reals: the fold of `min` from the accumulator's value
    over that axis's coordinates; and the float word of +∞ is the top element.
-/
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

noncomputable section

namespace Cert.LibTileOps

open Idealize.ShloMosaic Idealize.ShloMosaic.ValueIdx

/-! ## Layout operations read at an index: the two keepdims forms of a row vector

A lane sum over the last axis of an `[a, b, 3]` block is an `[a, b]` array. Kept as a column it is cast to
`[a, b, 1]` and broadcast along a new last axis; kept as a row it is cast to `[a, 1, b]` and broadcast along a new
middle axis. Each step reads one element of its operand. -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand's one entry at `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand's one row at `(i, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-! ## A minimum-reduction over one axis -/

/-- A `vector.multi_reduction <minimumf>` over one axis, read at the ideal values: the fold of `min` from the
    accumulator's value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The word `0x7F800000` is `+∞`. -/
theorem ofBits_posInf_f32 : Ideal.ofBits .f32 0x7F800000#32 = (⊤ : EReal) := by simp [Ideal.ofBits, Ideal.ieee]

end Cert.LibTileOps

end
-- ==== Proof.KI.Tile.lean ====
/-
  The kernel body's arithmetic read at an index, over the extended reals.

  One grid step holds two blocks of points, x0 (the rows) and x1 (the columns), each of 8 batches of 512 points with 3
  coordinates. The tile it computes has, at (b, r, q), the expanded squared distance of row point r and column point q
  of batch b:   (|u|² + |v|²) − two · ⟨u, v⟩   with u = x0(b, r, ·) and v = x1(b, q, ·).
  |u|² and |v|² are lane sums of squares, kept as a column and as a row and broadcast over the tile; ⟨u, v⟩ is the
  batched product of the two blocks contracting the coordinate axis, accumulated into zero. The two minima of the tile,
  over the columns of a row and over the rows of a column, are folds of `min` from +∞ and are carried by their
  universal property: c ≤ min ↔ c ≤ every member.
-/
import proofs.«102629_j8830452761307_1_alg».proof.Proof.Gen.KernelIdeal.Skeleton
import proofs.«102629_j8830452761307_1_alg».proof.Proof.ChamferSpec
import proofs.«102629_j8830452761307_1_alg».proof.Proof.LibTileOps
import Idealize.ShloMosaic.PureOps.Ideal.Laws
import Idealize.ShloMosaic.Lib.ValueIdx
import Idealize.ShloMosaic.Lib.Pipeline.Value
import Idealize.ShloMosaic.Lib.ValueLayout

noncomputable section

namespace Cert.Proof.KITile

open Cert.KernelIdeal Cert.KernelIdeal.Gen Idealize.ShloMosaic Idealize.ShloMosaic.ValueIdx Cert.LibTileOps

/-! ## The lane sum of squares -/

/-- The sum over the three lanes of the squares of a block, read at `(b, r)`: the squared norm of the point there. -/
theorem laneSumSq_apply (v : FVec Ideal S8x512x3 .f32) (hφ : FKind.Formats .f32)
    (hacc : (0x00000000#32 : BitVec 32) = 0x00000000#32) (b : Fin 8) (r : Fin 512) :
    multiReduction (F := Ideal) .add [2] S8x512 (mulf v v) 0x00000000#32 reduces_S8x512x3_S8x512 hφ hacc (ix2 b r)
      = Cert.Spec.sq3 (fun k => v (ix3 b r k)) := by
  refine (Ideal.multiReduction_add_single (mulf v v) 0x00000000#32 reduces_S8x512x3_S8x512 hφ hacc (ix2 b r)).trans ?_
  show ∑ k : Fin 3, mulf v v (reduces_S8x512x3_S8x512.lift (ix2 b r) k) = ∑ k : Fin 3, v (ix3 b r k) * v (ix3 b r k)
  refine Finset.sum_congr rfl fun k _ => ?_
  have e : reduces_S8x512x3_S8x512.lift (ix2 b r) k = ix3 b r k :=
    funext fun a => Fin.ext (by match a with | ⟨0, _⟩ => rfl | ⟨1, _⟩ => rfl | ⟨2, _⟩ => rfl)
  exact congrArg (fun i => v i * v i) e

/-! ## The batched product: batch axis 0 of both operands, contracting axis 2 of both -/

theorem lhs_tile_0 (i : S8x512x512.Idx) (q : dot_S8x512x3_S8x512x3_S8x512x512_2_2_1_1_0_0.contr.Idx) :
    (dot_S8x512x3_S8x512x3_S8x512x512_2_2_1_1_0_0.lhsIdx i q 0).val = (i 0).val := by
  unfold DotDims.lhsIdx
  rw [dif_pos (show (0 : Fin S8x512x3.rank) ∈ dot_S8x512x3_S8x512x3_S8x512x512_2_2_1_1_0_0.lhsBatch by decide)]
  rfl
theorem lhs_tile_1 (i : S8x512x512.Idx) (q : dot_S8x512x3_S8x512x3_S8x512x512_2_2_1_1_0_0.contr.Idx) :
    (dot_S8x512x3_S8x512x3_S8x512x512_2_2_1_1_0_0.lhsIdx i q 1).val = (i 1).val := by
  unfold DotDims.lhsIdx
  rw [dif_neg (show ¬(1 : Fin S8x512x3.rank) ∈ dot_S8x512x3_S8x512x3_S8x512x512_2_2_1_1_0_0.lhsBatch by decide), dif_pos (show (1 : Fin S8x512x3.rank) ∈ dot_S8x512x3_S8x512x3_S8x512x512_2_2_1_1_0_0.lhsNonContracting by decide)]
  rfl
theorem lhs_tile_2 (i : S8x512x512.Idx) (q : dot_S8x512x3_S8x512x3_S8x512x512_2_2_1_1_0_0.contr.Idx) :
    (dot_S8x512x3_S8x512x3_S8x512x512_2_2_1_1_0_0.lhsIdx i q 2).val = (q ⟨0, by decide⟩).val :=
  dot_S8x512x3_S8x512x3_S8x512x512_2_2_1_1_0_0.lhsIdx_val_of_single rfl i q
theorem rhs_tile_0 (i : S8x512x512.Idx) (q : dot_S8x512x3_S8x512x3_S8x512x512_2_2_1_1_0_0.contr.Idx) :
    (dot_S8x512x3_S8x512x3_S8x512x512_2_2_1_1_0_0.rhsIdx i q 0).val = (i 0).val := by
  unfold DotDims.rhsIdx
  rw [dif_pos (show (0 : Fin S8x512x3.rank) ∈ dot_S8x512x3_S8x512x3_S8x512x512_2_2_1_1_0_0.rhsBatch by decide)]
  rfl
theorem rhs_tile_1 (i : S8x512x512.Idx) (q : dot_S8x512x3_S8x512x3_S8x512x512_2_2_1_1_0_0.contr.Idx) :
    (dot_S8x512x3_S8x512x3_S8x512x512_2_2_1_1_0_0.rhsIdx i q 1).val = (i 2).val := by
  unfold DotDims.rhsIdx
  rw [dif_neg (show ¬(1 : Fin S8x512x3.rank) ∈ dot_S8x512x3_S8x512x3_S8x512x512_2_2_1_1_0_0.rhsBatch by decide), dif_pos (show (1 : Fin S8x512x3.rank) ∈ dot_S8x512x3_S8x512x3_S8x512x512_2_2_1_1_0_0.rhsNonContracting by decide)]
  rfl
theorem rhs_tile_2 (i : S8x512x512.Idx) (q : dot_S8x512x3_S8x512x3_S8x512x512_2_2_1_1_0_0.contr.Idx) :
    (dot_S8x512x3_S8x512x3_S8x512x512_2_2_1_1_0_0.rhsIdx i q 2).val = (q ⟨0, by decide⟩).val :=
  dot_S8x512x3_S8x512x3_S8x512x512_2_2_1_1_0_0.rhsIdx_val_of_single rfl i q

/-- The product into the zero tile, read at `(b, r, q)`: the inner product of row point `r` and column point `q` of
    batch `b`. -/
theorem matmulTile_apply (v1 v2 : FVec Ideal S8x512x3 .f32) (b : Fin 8) (r q : Fin 512) :
    matmul dot_S8x512x3_S8x512x3_S8x512x512_2_2_1_1_0_0 none v1 v2 (constant (F := Ideal) S8x512x512 .f32 0x00000000#32) (ix3 b r q)
      = Cert.Spec.dot3 (fun k => v1 (ix3 b r k)) (fun k => v2 (ix3 b q k)) := by
  simp only [matmul]
  rw [Ideal.matmul_constant_zero_apply, ← Equiv.sum_comp (contrEquiv1 dot_S8x512x3_S8x512x3_S8x512x512_2_2_1_1_0_0 3 rfl rfl).symm]
  unfold Cert.Spec.dot3
  refine Finset.sum_congr rfl fun k _ => ?_
  have hk := contrEquiv1_symm_val dot_S8x512x3_S8x512x3_S8x512x512_2_2_1_1_0_0 3 rfl rfl k
  have el : dot_S8x512x3_S8x512x3_S8x512x512_2_2_1_1_0_0.lhsIdx (ix3 b r q) ((contrEquiv1 dot_S8x512x3_S8x512x3_S8x512x512_2_2_1_1_0_0 3 rfl rfl).symm k) = ix3 b r k := funext fun a => Fin.ext (by
    match a with
    | ⟨0, _⟩ => exact lhs_tile_0 _ _
    | ⟨1, _⟩ => exact lhs_tile_1 _ _
    | ⟨2, _⟩ => exact (lhs_tile_2 _ _).trans hk)
  have er : dot_S8x512x3_S8x512x3_S8x512x512_2_2_1_1_0_0.rhsIdx (ix3 b r q) ((contrEquiv1 dot_S8x512x3_S8x512x3_S8x512x512_2_2_1_1_0_0 3 rfl rfl).symm k) = ix3 b q k := funext fun a => Fin.ext (by
    match a with
    | ⟨0, _⟩ => exact rhs_tile_0 _ _
    | ⟨1, _⟩ => exact rhs_tile_1 _ _
    | ⟨2, _⟩ => exact (rhs_tile_2 _ _).trans hk)
  rw [el, er]

/-! ## The tile of expanded squared distances -/

/-- The tile at `(b, r, q)` is the expanded squared distance of row point `r` and column point `q` of batch `b`. -/
theorem pay2_apply (x0 x1 : Vec Ideal S8x512x3 .f32) (b : Fin 8) (r q : Fin 512) :
    k0_pay2 (F := Ideal) x0 x1 (ix3 b r q) = Cert.Spec.dist Cert.Spec.two (fun k => x0 (ix3 b r k)) (fun k => x1 (ix3 b q k)) := by
  unfold k0_pay2
  simp only [subf_apply, addf_apply, mulf_apply, broadcast_apply, shapeCast_self]
  rw [broadcastTo_ab1_abc_apply, shapeCast_ab_ab1_apply, broadcastTo_a1c_abc_apply, shapeCast_ab_a1b_apply,
    laneSumSq_apply, laneSumSq_apply, matmulTile_apply]
  rfl

/-! ## The minima over one axis of the tile -/

/-- A lower bound of the minimum over the columns of row `r` is a lower bound of every entry of that row. -/
theorem le_pay3 (x0 x1 : Vec Ideal S8x512x3 .f32) (b : Fin 8) (r : Fin 512) (c : EReal) :
    c ≤ k0_pay3 (F := Ideal) x0 x1 (ix2 b r) ↔ ∀ q : Fin 512, c ≤ k0_pay2 (F := Ideal) x0 x1 (ix3 b r q) := by
  unfold k0_pay3
  have e := multiReduction_minimumf_single (k0_pay2 (F := Ideal) x0 x1) 0x7F800000#32 reduces_S8x512x512_S8x512
    (.inl rfl) rfl (ix2 b r)
  refine (iff_of_eq (congrArg (c ≤ ·) e)).trans ?_
  show c ≤ (Finset.univ : Finset (Fin 512)).fold min (Ideal.ofBits .f32 0x7F800000#32)
      (fun q : Fin 512 => k0_pay2 (F := Ideal) x0 x1 (reduces_S8x512x512_S8x512.lift (ix2 b r) q)) ↔ _
  rw [ofBits_posInf_f32, Cert.Spec.le_fold_min_top]
  refine forall_congr' fun q => ?_
  have e : reduces_S8x512x512_S8x512.lift (ix2 b r) q = ix3 b r q :=
    funext fun a => Fin.ext (by match a with | ⟨0, _⟩ => rfl | ⟨1, _⟩ => rfl | ⟨2, _⟩ => rfl)
  rw [e]

/-- A lower bound of the minimum over the rows of column `q` is a lower bound of every entry of that column. -/
theorem le_pay4 (x0 x1 : Vec Ideal S8x512x3 .f32) (b : Fin 8) (q : Fin 512) (c : EReal) :
    c ≤ k0_pay4 (F := Ideal) x0 x1 (ix2 b q) ↔ ∀ r : Fin 512, c ≤ k0_pay2 (F := Ideal) x0 x1 (ix3 b r q) := by
  unfold k0_pay4
  have e := multiReduction_minimumf_single (k0_pay2 (F := Ideal) x0 x1) 0x7F800000#32 reduces_S8x512x512_S8x512_2
    (.inl rfl) rfl (ix2 b q)
  refine (iff_of_eq (congrArg (c ≤ ·) e)).trans ?_
  show c ≤ (Finset.univ : Finset (Fin 512)).fold min (Ideal.ofBits .f32 0x7F800000#32)
      (fun r : Fin 512 => k0_pay2 (F := Ideal) x0 x1 (reduces_S8x512x512_S8x512_2.lift (ix2 b q) r)) ↔ _
  rw [ofBits_posInf_f32, Cert.Spec.le_fold_min_top]
  refine forall_congr' fun r => ?_
  have e : reduces_S8x512x512_S8x512_2.lift (ix2 b q) r = ix3 b r q :=
    funext fun a => Fin.ext (by match a with | ⟨0, _⟩ => rfl | ⟨1, _⟩ => rfl | ⟨2, _⟩ => rfl)
  rw [e]

end Cert.Proof.KITile

end
-- ==== Proof.KI.Value.lean ====
/-
  What the kernel computes, at the ideal values.

  With D[b, n, mm] the expanded squared distance between transformed source point n and reconstructed point mm of batch
  b, the two running minima the body keeps satisfy, after point n of the 8 × 8 grid (row tile n / 8, column tile n mod 8):
    * the row buffer's entry (b, r) is the minimum of row 512 · (n / 8) + r over the columns below 512 · (n mod 8 + 1);
    * the column buffer's entry (b, col) is the minimum of column col over the rows of the row tiles before the
      current one, and of the current one too once col's tile has been reached.
  Both by induction on the point, each minimum carried by its lower bounds. So the row-minima array, written back tile
  by tile after each last column tile, and the column-minima array, written back after the last point, hold the
  minima over whole rows and whole columns; the lines after the region add the two arrays up.
-/
import proofs.«102629_j8830452761307_1_alg».proof.Proof.KI.Body
import proofs.«102629_j8830452761307_1_alg».proof.Proof.KI.Tile
import proofs.«102629_j8830452761307_1_alg».proof.Proof.ChamferSpec
import Idealize.ShloMosaic.PureOps.Ideal.Laws
import Idealize.ShloMosaic.Lib.ValueIdx
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The two point arrays and the distance table

`garr`: the transformed source points as the region finds them (the host lines before the region computed them);
`parr`: the reconstructed points. `D b n mm` is the expanded squared distance between transformed point `n` and
reconstructed point `mm` of batch `b`. -/

abbrev garr (c : Dev nD) : Vec Ideal S8x4096x3 .f32 := V m c main_v6
abbrev parr (c : Dev nD) : Vec Ideal S8x4096x3 .f32 := V m c main_arg0

def D (c : Dev nD) (b : Fin 8) (n mm : Fin 4096) : EReal :=
  Cert.Spec.dist Cert.Spec.two (fun k => garr m c (ix3 b n k)) (fun k => parr m c (ix3 b mm k))

/-- Row `r` of the row tile of point `n`, and column `q` of its column tile, as rows and columns of the table. -/
def rix (n : ℕ) (r : Fin 512) : Fin 4096 := ⟨512 * (n / 8 % 8) + r.val, by have := r.isLt; omega⟩
def cix (n : ℕ) (q : Fin 512) : Fin 4096 := ⟨512 * (n % 8) + q.val, by have := q.isLt; omega⟩

/-! ## The printed index maps and offsets, decided over the grid -/

theorem hN (t : Fin cfg0.N) : t.val < 64 := lt_of_lt_of_eq t.isLt (show cfg0.N = 64 from N_0)

theorem idx_g : ∀ t : Fin cfg0.N, win0_0.index t (0 : Fin 3) = 0 ∧ win0_0.index t (1 : Fin 3) = t.val / 8 ∧ win0_0.index t (2 : Fin 3) = 0 :=
  (by decide +kernel : ∀ t : Fin grid0.N, win0_0.index t (0 : Fin 3) = 0 ∧ win0_0.index t (1 : Fin 3) = t.val / 8 ∧ win0_0.index t (2 : Fin 3) = 0)
theorem idx_p : ∀ t : Fin cfg0.N, win0_1.index t (0 : Fin 3) = 0 ∧ win0_1.index t (1 : Fin 3) = t.val % 8 ∧ win0_1.index t (2 : Fin 3) = 0 :=
  (by decide +kernel : ∀ t : Fin grid0.N, win0_1.index t (0 : Fin 3) = 0 ∧ win0_1.index t (1 : Fin 3) = t.val % 8 ∧ win0_1.index t (2 : Fin 3) = 0)
theorem idx_row : ∀ t : Fin cfg0.N, win0_2.index t (0 : Fin 2) = 0 ∧ win0_2.index t (1 : Fin 2) = t.val / 8 :=
  (by decide +kernel : ∀ t : Fin grid0.N, win0_2.index t (0 : Fin 2) = 0 ∧ win0_2.index t (1 : Fin 2) = t.val / 8)
theorem idx_col : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- The column buffer's slice at point `t` starts at row 0, column 512 · (t mod 8). -/
theorem off_col : ∀ t : Fin cfg0.N, k0_off1 (grid0.coords t) (0 : Fin 2) = 0 ∧ k0_off1 (grid0.coords t) (1 : Fin 2) = 512 * (t.val % 8) :=
  (by decide +kernel : ∀ t : Fin grid0.N, k0_off1 (grid0.coords t) (0 : Fin 2) = 0 ∧ k0_off1 (grid0.coords t) (1 : Fin 2) = 512 * (t.val % 8))

/-! ## The input blocks are tiles of the arrays -/

theorem gblk_apply (c : Dev nD) (t : Fin cfg0.N) (b : Fin 8) (r : Fin 512) (k : Fin 3) :
    gblk m c t (ix3 b r k) = garr m c (ix3 b (rix t.val r) k) := by
  obtain ⟨e0, e1, e2⟩ := idx_g t
  have hn := hN t
  show V m c main_v6 (((cfg0.win 0).blk t).view.emb (ix3 b r k)) = V m c main_v6 _
  refine congrArg _ (funext fun a => Fin.ext ?_)
  match a with
  | ⟨0, _⟩ => show win0_0.index t (0 : Fin 3) * 8 + 1 * b.val = b.val; omega
  | ⟨1, _⟩ => show win0_0.index t (1 : Fin 3) * 512 + 1 * r.val = 512 * (t.val / 8 % 8) + r.val; omega
  | ⟨2, _⟩ => show win0_0.index t (2 : Fin 3) * 3 + 1 * k.val = k.val; omega

theorem pblk_apply (c : Dev nD) (t : Fin cfg0.N) (b : Fin 8) (q : Fin 512) (k : Fin 3) :
    pblk m c t (ix3 b q k) = parr m c (ix3 b (cix t.val q) k) := by
  obtain ⟨e0, e1, e2⟩ := idx_p t
  show V m c main_arg0 (((cfg0.win 1).blk t).view.emb (ix3 b q k)) = V m c main_arg0 _
  refine congrArg _ (funext fun a => Fin.ext ?_)
  match a with
  | ⟨0, _⟩ => show win0_1.index t (0 : Fin 3) * 8 + 1 * b.val = b.val; omega
  | ⟨1, _⟩ => show win0_1.index t (1 : Fin 3) * 512 + 1 * q.val = 512 * (t.val % 8) + q.val; omega
  | ⟨2, _⟩ => show win0_1.index t (2 : Fin 3) * 3 + 1 * k.val = k.val; omega

/-- The tile of distances the body forms at point `t` is the table's tile. -/
theorem tile_eq (c : Dev nD) (t : Fin cfg0.N) (b : Fin 8) (r q : Fin 512) :
    k0_pay2 (F := Ideal) (gblk m c t) (pblk m c t) (ix3 b r q) = D m c b (rix t.val r) (cix t.val q) := by
  rw [Cert.Proof.KITile.pay2_apply]
  unfold D
  simp only [gblk_apply, pblk_apply]

/-! ## The step functions read at an index -/

theorem rowFirst_apply (x0 x1 : Vec Ideal S8x512x3 .f32) (j : S8x512.Idx) :
    rowFirst (F := Ideal) x0 x1 j = k0_pay3 (F := Ideal) x0 x1 j := by
  unfold rowFirst
  rw [View.ld_unit_zero off3, View.ld_unit_zero off3]

theorem rowNext_apply (x0 x1 : Vec Ideal S8x512x3 .f32) (y : Vec Ideal S8x512 .f32) (j : S8x512.Idx) :
    rowNext (F := Ideal) x0 x1 y j = min (y j) (k0_pay3 (F := Ideal) x0 x1 j) := by
  unfold rowNext
  rw [View.ld_unit_zero off3, View.ld_unit_zero off3, View.ld_unit_zero off2]
  unfold k0_pay5
  rw [shapeCast_self]
  rfl

/-- +∞ everywhere: what the column buffer is reset to. -/
theorem pay6_apply (j : S8x4096.Idx) : k0_pay6 (F := Ideal) j = (⊤ : EReal) := by
  unfold k0_pay6
  show Ideal.ofBits .f32 0x7F800000#32 = ⊤
  simp [Ideal.ofBits, Ideal.ieee]

/-- On the current column tile the column buffer takes the minimum with the tile's column minima; -/
theorem colStep_in (t : Fin cfg0.N) (x0 x1 : Vec Ideal S8x512x3 .f32) (z : Vec Ideal S8x4096 .f32) (b : Fin 8) (q : Fin 512) :
    colStep (F := Ideal) (grid0.coords t) x0 x1 z (ix2 b (cix t.val q))
      = min (z (ix2 b (cix t.val q))) (k0_pay4 (F := Ideal) x0 x1 (ix2 b q)) := by
  obtain ⟨o0, o1⟩ := off_col t
  have e : (rCol (grid0.coords t)).emb (ix2 b q) = ix2 b (cix t.val q) := funext fun a => Fin.ext (by
    match a with
    | ⟨0, _⟩ => show k0_off1 (grid0.coords t) (0 : Fin 2) + 1 * b.val = b.val; omega
    | ⟨1, _⟩ => show k0_off1 (grid0.coords t) (1 : Fin 2) + 1 * q.val = 512 * (t.val % 8) + q.val; omega)
  unfold colStep
  rw [← e, Rect.overlay_emb, View.ld_unit_zero off3, View.ld_unit_zero off3]
  unfold k0_pay1 k0_pay7
  rw [shapeCast_self]
  rfl

/-- off it, it keeps what it held. -/
theorem colStep_out (t : Fin cfg0.N) (x0 x1 : Vec Ideal S8x512x3 .f32) (z : Vec Ideal S8x4096 .f32) (b : Fin 8) (col : Fin 4096)
    (h : col.val / 512 ≠ t.val % 8) :
    colStep (F := Ideal) (grid0.coords t) x0 x1 z (ix2 b col) = z (ix2 b col) := by
  obtain ⟨o0, o1⟩ := off_col t
  unfold colStep
  refine Rect.overlay_of_not_mem _ _ _ ?_
  rw [Rect.mem_set_unit]
  intro hall
  have h1 : k0_off1 (grid0.coords t) (1 : Fin 2) ≤ col.val ∧ col.val < k0_off1 (grid0.coords t) (1 : Fin 2) + 512 := hall 1
  omega

/-! ## A tile's rows and columns among the table's -/

theorem forall_cix (f : Fin 4096 → Prop) (n : ℕ) :
    (∀ q : Fin 512, f (cix n q)) ↔ ∀ mm : Fin 4096, 512 * (n % 8) ≤ mm.val → mm.val < 512 * (n % 8 + 1) → f mm := by
  constructor
  · intro h mm h1 h2
    have hq : mm.val - 512 * (n % 8) < 512 := by omega
    have e : cix n ⟨mm.val - 512 * (n % 8), hq⟩ = mm :=
      Fin.ext (by show 512 * (n % 8) + (mm.val - 512 * (n % 8)) = mm.val; omega)
    exact e ▸ h ⟨mm.val - 512 * (n % 8), hq⟩
  · intro h q
    have := q.isLt
    exact h (cix n q) (by show 512 * (n % 8) ≤ 512 * (n % 8) + q.val; omega)
      (by show 512 * (n % 8) + q.val < 512 * (n % 8 + 1); omega)

theorem forall_rix (f : Fin 4096 → Prop) (n : ℕ) :
    (∀ r : Fin 512, f (rix n r)) ↔ ∀ nn : Fin 4096, 512 * (n / 8 % 8) ≤ nn.val → nn.val < 512 * (n / 8 % 8 + 1) → f nn := by
  constructor
  · intro h nn h1 h2
    have hr : nn.val - 512 * (n / 8 % 8) < 512 := by omega
    have e : rix n ⟨nn.val - 512 * (n / 8 % 8), hr⟩ = nn :=
      Fin.ext (by show 512 * (n / 8 % 8) + (nn.val - 512 * (n / 8 % 8)) = nn.val; omega)
    exact e ▸ h ⟨nn.val - 512 * (n / 8 % 8), hr⟩
  · intro h r
    have := r.isLt
    exact h (rix n r) (by show 512 * (n / 8 % 8) ≤ 512 * (n / 8 % 8) + r.val; omega)
      (by show 512 * (n / 8 % 8) + r.val < 512 * (n / 8 % 8 + 1); omega)

/-! ## The invariants of the two buffers

After point `n` (row tile n / 8, column tile n mod 8) the row buffer's entry (b, r) is the minimum of row
`rix n r` of the table over the columns of the column tiles seen so far, [0, 512 · (n mod 8 + 1)); the column buffer's
entry (b, col) is the minimum of column `col` over the rows seen so far: those of the row tiles before the current
one, and of the current one too if the column's tile has been reached. Each minimum is carried by its lower bounds. -/

def RowInv (c : Dev nD) (n : ℕ) (y : Vec Ideal S8x512 .f32) : Prop :=
  ∀ (b : Fin 8) (r : Fin 512) (cc : EReal),
    cc ≤ y (ix2 b r) ↔ ∀ mm : Fin 4096, mm.val < 512 * (n % 8 + 1) → cc ≤ D m c b (rix n r) mm

def ColInv (c : Dev nD) (B : Fin 4096 → ℕ) (z : Vec Ideal S8x4096 .f32) : Prop :=
  ∀ (b : Fin 8) (col : Fin 4096) (cc : EReal),
    cc ≤ z (ix2 b col) ↔ ∀ nn : Fin 4096, nn.val < B col → cc ≤ D m c b nn col

theorem colInv_congr (c : Dev nD) (B B' : Fin 4096 → ℕ) (z : Vec Ideal S8x4096 .f32) (h : ∀ col, B col = B' col)
    (hz : ColInv m c B z) : ColInv m c B' z := by
  have e : B = B' := funext h
  rwa [← e]

/-- At a first column tile the row buffer holds the tile's row minima. -/
theorem rowInv_first (c : Dev nD) (t : Fin cfg0.N) (h0 : t.val % 8 = 0) :
    RowInv m c t.val (rowFirst (F := Ideal) (gblk m c t) (pblk m c t)) := by
  intro b r cc
  rw [rowFirst_apply, Cert.Proof.KITile.le_pay3]
  simp only [tile_eq]
  rw [forall_cix (fun mm => cc ≤ D m c b (rix t.val r) mm)]
  constructor
  · intro h mm hlt; exact h mm (by omega) hlt
  · intro h mm _ hlt; exact h mm hlt

/-- At a later column tile it takes the minimum with the tile's row minima: the columns seen grow by one tile. -/
theorem rowInv_next (c : Dev nD) (t : Fin cfg0.N) (h0 : ¬ t.val % 8 = 0) (y : Vec Ideal S8x512 .f32)
    (hy : RowInv m c (t.val - 1) y) :
    RowInv m c t.val (rowNext (F := Ideal) (gblk m c t) (pblk m c t) y) := by
  intro b r cc
  rw [rowNext_apply, le_min_iff, hy b r cc, Cert.Proof.KITile.le_pay3]
  simp only [tile_eq]
  rw [forall_cix (fun mm => cc ≤ D m c b (rix t.val r) mm)]
  have er : rix (t.val - 1) r = rix t.val r :=
    Fin.ext (by show 512 * ((t.val - 1) / 8 % 8) + r.val = 512 * (t.val / 8 % 8) + r.val; omega)
  rw [er]
  constructor
  · rintro ⟨h1, h2⟩ mm hlt
    by_cases hm : mm.val < 512 * ((t.val - 1) % 8 + 1)
    · exact h1 mm hm
    · exact h2 mm (by omega) hlt
  · intro h
    exact ⟨fun mm hlt => h mm (by omega), fun mm _ hlt => h mm hlt⟩

/-- One point's update of the column buffer: on the current column tile, whose columns had seen exactly the rows of the
    earlier row tiles, the rows seen grow by the current row tile; elsewhere nothing changes. -/
theorem colInv_step (c : Dev nD) (t : Fin cfg0.N) (B : Fin 4096 → ℕ) (z : Vec Ideal S8x4096 .f32) (hz : ColInv m c B z)
    (hB : ∀ col : Fin 4096, col.val / 512 = t.val % 8 → B col = 512 * (t.val / 8)) :
    ColInv m c (fun col => if col.val / 512 = t.val % 8 then 512 * (t.val / 8 + 1) else B col)
      (colStep (F := Ideal) (grid0.coords t) (gblk m c t) (pblk m c t) z) := by
  intro b col cc
  have hn := hN t
  by_cases hc : col.val / 512 = t.val % 8
  · have hq : col.val - 512 * (t.val % 8) < 512 := by have := col.isLt; omega
    obtain ⟨q, rfl⟩ : ∃ q : Fin 512, col = cix t.val q :=
      ⟨⟨col.val - 512 * (t.val % 8), hq⟩, Fin.ext (by show col.val = 512 * (t.val % 8) + (col.val - 512 * (t.val % 8)); omega)⟩
    rw [colStep_in, le_min_iff, hz b (cix t.val q) cc, Cert.Proof.KITile.le_pay4]
    simp only [tile_eq, if_pos hc]
    rw [forall_rix (fun nn => cc ≤ D m c b nn (cix t.val q)), hB (cix t.val q) hc]
    constructor
    · rintro ⟨h1, h2⟩ nn hlt
      by_cases hm : nn.val < 512 * (t.val / 8)
      · exact h1 nn hm
      · exact h2 nn (by omega) (by omega)
    · intro h
      exact ⟨fun nn hlt => h nn (by omega), fun nn h1 h2 => h nn (by omega)⟩
  · rw [colStep_out t _ _ _ b col hc, hz b col cc]
    simp only [if_neg hc]

/-- The rows column `col` has seen after point `n`. -/
def bnd (n : ℕ) (col : Fin 4096) : ℕ := 512 * (n / 8 + (if col.val / 512 ≤ n % 8 then 1 else 0))

/-- Both invariants after every point, by induction on the point. -/
theorem inv_all (c : Dev nD) : ∀ (n : ℕ) (hn : n < cfg0.N),
    RowInv m c n (accAt m c n hn).1 ∧ ColInv m c (bnd n) (accAt m c n hn).2
  | 0, hn => by
    have e : accAt m c 0 hn = (rowFirst (F := Ideal) (gblk m c ⟨0, hn⟩) (pblk m c ⟨0, hn⟩),
        colStep (F := Ideal) (grid0.coords ⟨0, hn⟩) (gblk m c ⟨0, hn⟩) (pblk m c ⟨0, hn⟩) (k0_pay6 (F := Ideal))) :=
      accAt_first m c ⟨0, hn⟩ rfl
    rw [e]
    dsimp only
    have hrow : RowInv m c 0 (rowFirst (F := Ideal) (gblk m c ⟨0, hn⟩) (pblk m c ⟨0, hn⟩)) := rowInv_first m c ⟨0, hn⟩ rfl
    have hinf : ColInv m c (fun _ => 0) (k0_pay6 (F := Ideal)) := by
      intro b col cc
      rw [pay6_apply]
      exact ⟨fun _ nn h => absurd h (Nat.not_lt_zero _), fun _ => le_top⟩
    have hstep := colInv_step m c ⟨0, hn⟩ (fun _ => 0) (k0_pay6 (F := Ideal)) hinf (fun _ _ => by show (0 : ℕ) = 512 * (0 / 8); decide)
    refine ⟨hrow, colInv_congr m c _ (bnd 0) _ ?_ hstep⟩
    intro col
    have := col.isLt
    unfold bnd
    dsimp only
    split_ifs <;> omega
  | n + 1, hn => by
    have ih := inv_all c n (Nat.lt_of_succ_lt hn)
    have hn64 : n + 1 < 64 := lt_of_lt_of_eq hn (show cfg0.N = 64 from N_0)
    have hB : ∀ col : Fin 4096, col.val / 512 = (n + 1) % 8 → bnd n col = 512 * ((n + 1) / 8) := by
      intro col hcol
      have := col.isLt
      unfold bnd
      split_ifs <;> omega
    have hstep := colInv_step m c ⟨n + 1, hn⟩ (bnd n) (accAt m c n (Nat.lt_of_succ_lt hn)).2 ih.2 hB
    have hcol : ColInv m c (bnd (n + 1))
        (colStep (F := Ideal) (grid0.coords ⟨n + 1, hn⟩) (gblk m c ⟨n + 1, hn⟩) (pblk m c ⟨n + 1, hn⟩) (accAt m c n (Nat.lt_of_succ_lt hn)).2) := by
      refine colInv_congr m c _ (bnd (n + 1)) _ ?_ hstep
      intro col
      have := col.isLt
      unfold bnd
      dsimp only
      split_ifs <;> omega
    by_cases h0 : (n + 1) % 8 = 0
    · have e : accAt m c (n + 1) hn = (rowFirst (F := Ideal) (gblk m c ⟨n + 1, hn⟩) (pblk m c ⟨n + 1, hn⟩),
          colStep (F := Ideal) (grid0.coords ⟨n + 1, hn⟩) (gblk m c ⟨n + 1, hn⟩) (pblk m c ⟨n + 1, hn⟩) (accAt m c n (Nat.lt_of_succ_lt hn)).2) :=
        accAt_rowstart m c ⟨n + 1, hn⟩ (Nat.succ_ne_zero n) h0
      have hrow : RowInv m c (n + 1) (rowFirst (F := Ideal) (gblk m c ⟨n + 1, hn⟩) (pblk m c ⟨n + 1, hn⟩)) :=
        rowInv_first m c ⟨n + 1, hn⟩ h0
      rw [e]
      dsimp only
      exact ⟨hrow, hcol⟩
    · have e : accAt m c (n + 1) hn = (rowNext (F := Ideal) (gblk m c ⟨n + 1, hn⟩) (pblk m c ⟨n + 1, hn⟩) (accAt m c n (Nat.lt_of_succ_lt hn)).1,
          colStep (F := Ideal) (grid0.coords ⟨n + 1, hn⟩) (gblk m c ⟨n + 1, hn⟩) (pblk m c ⟨n + 1, hn⟩) (accAt m c n (Nat.lt_of_succ_lt hn)).2) :=
        accAt_later m c ⟨n + 1, hn⟩ h0
      have hprev : RowInv m c (n + 1 - 1) (accAt m c n (Nat.lt_of_succ_lt hn)).1 := by
        rw [Nat.add_sub_cancel]; exact ih.1
      have hrow : RowInv m c (n + 1) (rowNext (F := Ideal) (gblk m c ⟨n + 1, hn⟩) (pblk m c ⟨n + 1, hn⟩) (accAt m c n (Nat.lt_of_succ_lt hn)).1) :=
        rowInv_next m c ⟨n + 1, hn⟩ h0 _ hprev
      rw [e]
      dsimp only
      exact ⟨hrow, hcol⟩

/-! ## The two result arrays after the run

The row window writes its buffer back after each last column tile: by then the buffer's entry has seen every
column. The column window writes back once, after the last point: every entry has seen every row. -/

theorem mem_blk_row (t : Fin cfg0.N) (i : S8x4096.Idx) :
    i ∈ ((cfg0.win 2).blk t).view.set ↔ ∀ a : Fin 2, win0_2.index t a * S8x512.size a ≤ (i a).val ∧ (i a).val < win0_2.index t a * S8x512.size a + S8x512.size a := by
  show i ∈ ((View.whole main_v7_0).slice (win0_2.rect t)).set ↔ _
  rw [View.set_slice_whole, Rect.mem_set_unit]
  exact Iff.rfl

theorem mem_blk_col (t : Fin cfg0.N) (i : S8x4096.Idx) :
    i ∈ ((cfg0.win 3).blk t).view.set ↔ ∀ a : Fin 2, win0_3.index t a * S8x4096.size a ≤ (i a).val ∧ (i a).val < win0_3.index t a * S8x4096.size a + S8x4096.size a := by
  show i ∈ ((View.whole main_v7_1).slice (win0_3.rect t)).set ↔ _
  rw [View.set_slice_whole, Rect.mem_set_unit]
  exact Iff.rfl

theorem flushed_row (c : Dev nD) (t : Fin cfg0.N) : (dats m 0 c).flushed 2 t = (accAt m c t.val t.isLt).1 := by
  show (cfg0.win 2).cut (grid0.coords t) ((dats m 0 c).after 2 t) = _
  rw [after0_2]; rfl

theorem flushed_col (c : Dev nD) (t : Fin cfg0.N) : (dats m 0 c).flushed 3 t = (accAt m c t.val t.isLt).2 := by
  show (cfg0.win 3).cut (grid0.coords t) ((dats m 0 c).after 3 t) = _
  rw [after0_3]; rfl

/-- Every entry of the row-minima array is the minimum of its row of the table. -/
theorem rowFinal (c : Dev nD) (b : Fin 8) (n : Fin 4096) (cc : EReal) :
    cc ≤ (dats m 0 c).arrAt 2 cfg0.N (ix2 b n) ↔ ∀ mm : Fin 4096, cc ≤ D m c b n mm := by
  refine (dats m 0 c).arrAt_forall_of_cover 2
    (fun (i : S8x4096.Idx) (v : EReal) => ∀ cc : EReal, cc ≤ v ↔ ∀ mm : Fin 4096, cc ≤ D m c (i 0) (i 1) mm) ?_ ?_ (ix2 b n) cc
  · intro t hf (y : S8x512.Idx) cc
    obtain ⟨bb, r, rfl⟩ : ∃ (bb : Fin 8) (r : Fin 512), y = ix2 bb r := ⟨y 0, y 1, eq_ix2 y⟩
    have ht : t.val % 8 = 7 := (flush0_2 t).mp hf
    have hn := hN t
    obtain ⟨e0, e1⟩ := idx_row t
    have hemb : ((cfg0.win 2).blk t).view.emb (ix2 bb r) = ix2 bb (rix t.val r) := funext fun a => Fin.ext (by
      match a with
      | ⟨0, _⟩ => show win0_2.index t (0 : Fin 2) * 8 + 1 * bb.val = bb.val; omega
      | ⟨1, _⟩ => show win0_2.index t (1 : Fin 2) * 512 + 1 * r.val = 512 * (t.val / 8 % 8) + r.val; omega)
    show cc ≤ (dats m 0 c).flushed 2 t (ix2 bb r) ↔ ∀ mm : Fin 4096, cc ≤ D m c ((((cfg0.win 2).blk t).view.emb (ix2 bb r)) 0) ((((cfg0.win 2).blk t).view.emb (ix2 bb r)) 1) mm
    rw [hemb, flushed_row]
    show cc ≤ (accAt m c t.val t.isLt).1 (ix2 bb r) ↔ ∀ mm : Fin 4096, cc ≤ D m c bb (rix t.val r) mm
    rw [(inv_all m c t.val t.isLt).1 bb r cc]
    constructor
    · intro h mm; exact h mm (by have := mm.isLt; omega)
    · intro h mm _; exact h mm
  · intro i
    have hi1 : (i 1).val < 4096 := (i 1).isLt
    have hi0 : (i 0).val < 8 := (i 0).isLt
    have hlt : 8 * ((i 1).val / 512) + 7 < cfg0.N := lt_of_lt_of_eq (by omega : 8 * ((i 1).val / 512) + 7 < 64) N_0.symm
    refine ⟨⟨8 * ((i 1).val / 512) + 7, hlt⟩, (flush0_2 _).mpr (by show (8 * ((i 1).val / 512) + 7) % 8 = 7; omega), ?_⟩
    rw [mem_blk_row]
    obtain ⟨e0, e1⟩ := idx_row ⟨8 * ((i 1).val / 512) + 7, hlt⟩
    intro a
    match a with
    | ⟨0, _⟩ => show win0_2.index _ (0 : Fin 2) * 8 ≤ (i 0).val ∧ (i 0).val < win0_2.index _ (0 : Fin 2) * 8 + 8; omega
    | ⟨1, _⟩ =>
      show win0_2.index _ (1 : Fin 2) * 512 ≤ (i 1).val ∧ (i 1).val < win0_2.index _ (1 : Fin 2) * 512 + 512
      rw [e1]; show (8 * ((i 1).val / 512) + 7) / 8 * 512 ≤ (i 1).val ∧ (i 1).val < (8 * ((i 1).val / 512) + 7) / 8 * 512 + 512
      omega

/-- Every entry of the column-minima array is the minimum of its column of the table. -/
theorem colFinal (c : Dev nD) (b : Fin 8) (col : Fin 4096) (cc : EReal) :
    cc ≤ (dats m 0 c).arrAt 3 cfg0.N (ix2 b col) ↔ ∀ nn : Fin 4096, cc ≤ D m c b nn col := by
  refine (dats m 0 c).arrAt_forall_of_cover 3
    (fun (i : S8x4096.Idx) (v : EReal) => ∀ cc : EReal, cc ≤ v ↔ ∀ nn : Fin 4096, cc ≤ D m c (i 0) nn (i 1)) ?_ ?_ (ix2 b col) cc
  · intro t hf (y : S8x4096.Idx) cc
    obtain ⟨bb, q, rfl⟩ : ∃ (bb : Fin 8) (q : Fin 4096), y = ix2 bb q := ⟨y 0, y 1, eq_ix2 y⟩
    have ht : t.val % 64 = 63 := (flush0_3 t).mp hf
    have hn := hN t
    have htv : t.val = 63 := by omega
    obtain ⟨e0, e1⟩ := idx_col t
    have hemb : ((cfg0.win 3).blk t).view.emb (ix2 bb q) = ix2 bb q := funext fun a => Fin.ext (by
      match a with
      | ⟨0, _⟩ => show win0_3.index t (0 : Fin 2) * 8 + 1 * bb.val = bb.val; omega
      | ⟨1, _⟩ => show win0_3.index t (1 : Fin 2) * 4096 + 1 * q.val = q.val; omega)
    show cc ≤ (dats m 0 c).flushed 3 t (ix2 bb q) ↔ ∀ nn : Fin 4096, cc ≤ D m c ((((cfg0.win 3).blk t).view.emb (ix2 bb q)) 0) nn ((((cfg0.win 3).blk t).view.emb (ix2 bb q)) 1)
    rw [hemb, flushed_col]
    show cc ≤ (accAt m c t.val t.isLt).2 (ix2 bb q) ↔ ∀ nn : Fin 4096, cc ≤ D m c bb nn q
    rw [(inv_all m c t.val t.isLt).2 bb q cc]
    have hb : bnd t.val q = 4096 := by
      have := q.isLt
      unfold bnd
      split_ifs <;> omega
    rw [hb]
    constructor
    · intro h nn; exact h nn nn.isLt
    · intro h nn _; exact h nn
  · intro i
    have hlt : 63 < cfg0.N := lt_of_lt_of_eq (by omega : 63 < 64) N_0.symm
    refine ⟨⟨63, hlt⟩, (flush0_3 _).mpr (by show 63 % 64 = 63; omega), ?_⟩
    rw [mem_blk_col]
    obtain ⟨e0, e1⟩ := idx_col ⟨63, hlt⟩
    have hi1 : (i 1).val < 4096 := (i 1).isLt
    have hi0 : (i 0).val < 8 := (i 0).isLt
    intro a
    match a with
    | ⟨0, _⟩ => show win0_3.index _ (0 : Fin 2) * 8 ≤ (i 0).val ∧ (i 0).val < win0_3.index _ (0 : Fin 2) * 8 + 8; omega
    | ⟨1, _⟩ => show win0_3.index _ (1 : Fin 2) * 4096 ≤ (i 1).val ∧ (i 1).val < win0_3.index _ (1 : Fin 2) * 4096 + 4096; omega

/-! ## The run, with the result named -/

/-- The lines after the region: the sum of the column minima plus the sum of the row minima. -/
def total (colArr rowArr : Vec Ideal S8x4096 .f32) : Vec Ideal S_ .f32 :=
  addf (Host.reduceAdd colArr (constant (F := Ideal) S_ .f32 0x00000000#32) Facts₀.reducesTo_S8x4096_S_d0_1 Facts₀.h_S_)
    (Host.reduceAdd rowArr (constant (F := Ideal) S_ .f32 0x00000000#32) Facts₀.reducesTo_S8x4096_S_d0_1 Facts₀.h_S_)

theorem tail_result (c : Dev nD) :
    Pipeline.afterTail₀ cfgs (dats m) 0 (V0 m) [hostOps1] c main_v10
      = total ((dats m 0 c).arrAt 3 cfg0.N) ((dats m 0 c).arrAt 2 cfg0.N) := by
  unfold Pipeline.afterTail₀
  show StableHlo.after hostOps1 _ (Proc.devRef .tc main_v10) = _
  after_results
  have h3 : Pipeline.withArrays (cfgs 0).spec c (V0 m c) (fun w => (dats m 0 c).arrAt w (cfgs 0).N) (Proc.devRef .tc main_v7_1)
      = (dats m 0 c).arrAt 3 cfg0.N := Pipeline.withArrays_arr spec0 launch0.win.arr_inj c (V0 m c) _ 3
  have h2 : Pipeline.withArrays (cfgs 0).spec c (V0 m c) (fun w => (dats m 0 c).arrAt w (cfgs 0).N) (Proc.devRef .tc main_v7_0)
      = (dats m 0 c).arrAt 2 cfg0.N := Pipeline.withArrays_arr spec0 launch0.win.arr_inj c (V0 m c) _ 2
  rw [h3, h2]
  rfl

/-- The frame run re-posted: the result at the total of the two minima arrays, the arguments unchanged. -/
theorem run_value : θ_run defs (onTc (τ := τ) (main (F := Ideal))) ⟨m, fun _ => 0, ρ⟩ (fun r => ∀ c : Dev nD,
      r.2.mem ((c.tc : Thread nD τ).loc main_v10) = total ((dats m 0 c).arrAt 3 cfg0.N) ((dats m 0 c).arrAt 2 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v10 (Pipeline.mem_restRefs_of main_v10 (by decide) (by decide))).trans (tail_result m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Proof.KI

end
-- ==== Proof.RefSide.lean ====
/-
  The reference program's stages read at an index, at the ideal values (a float is an extended real).

  The transformed source points are the stage val_main_v6. For a batch b, a transformed source point n and a
  reconstructed point mm, the table val_main_v19 holds the expanded squared distance
      (|u|² + |v|²) − two · ⟨u, v⟩,   u = the transformed source point n,  v = the reconstructed point mm,
  and the two reductions val_main_v22 and val_main_v20 are its minima over mm and over n, each carried by the
  universal property of a minimum: c ≤ min ↔ c ≤ every member.
-/
import proofs.«102629_j8830452761307_1_alg».proof.Proof.Gen.ReferenceIdeal.Read
import proofs.«102629_j8830452761307_1_alg».proof.Proof.ChamferSpec
import Idealize.ShloMosaic.PureOps.Ideal.Laws
import Idealize.ShloMosaic.PureOps.Reduce
import Idealize.ShloMosaic.Lib.ValueIdx

noncomputable section

namespace Cert.Proof.RefSide

open Cert.ReferenceIdeal Cert.ReferenceIdeal.Read Idealize.ShloMosaic Idealize.ShloMosaic.ValueIdx

-- x0 : the reconstructed points, x1 : the source points, x2 : the transforms
variable (x0 x1 : (⟨S8x4096x3, .f32⟩ : BufTy).Contents (Elt Ideal)) (x2 : (⟨S8x4x4, .f32⟩ : BufTy).Contents (Elt Ideal))

/-- The pattern of +∞ denotes the top element. -/
private theorem ofBits_inf_f32 : Ideal.ofBits .f32 0x7F800000#32 = (⊤ : EReal) := by
  simp [Ideal.ofBits, Ideal.ieee]

/-- |u|² of the transformed source point n of batch b. -/
theorem sq_src (b : Fin 8) (n : Fin 4096) :
    val_main_v8 (F := Ideal) x1 x2 (ix2 b n)
      = Cert.Spec.sq3 (fun k => val_main_v6 (F := Ideal) x1 x2 (ix3 b n k)) := by
  rw [val_main_v8_apply, val_main_cst_apply, Ideal.ofBits_def, Ideal.ofBits_zero_f32, zero_add]
  unfold Cert.Spec.sq3
  refine Finset.sum_congr rfl fun k _ => ?_
  have e : idx_main_v8 (ix2 b n) k = ix3 b n k :=
    funext fun a => Fin.ext (by match a with | ⟨0, _⟩ => rfl | ⟨1, _⟩ => rfl | ⟨2, _⟩ => rfl)
  rw [val_main_v7_apply, Ideal.mulf_def, e]

/-- |v|² of the reconstructed point mm of batch b. -/
theorem sq_rec (b : Fin 8) (mm : Fin 4096) :
    val_main_v10 (F := Ideal) x0 (ix2 b mm) = Cert.Spec.sq3 (fun k => x0 (ix3 b mm k)) := by
  rw [val_main_v10_apply, val_main_cst_0_apply, Ideal.ofBits_def, Ideal.ofBits_zero_f32, zero_add]
  unfold Cert.Spec.sq3
  refine Finset.sum_congr rfl fun k _ => ?_
  have e : idx_main_v10 (ix2 b mm) k = ix3 b mm k :=
    funext fun a => Fin.ext (by match a with | ⟨0, _⟩ => rfl | ⟨1, _⟩ => rfl | ⟨2, _⟩ => rfl)
  rw [val_main_v9_apply, Ideal.mulf_def, e]

/-- ⟨u, v⟩ of the transformed source point n and the reconstructed point mm of batch b. -/
theorem dot_src_rec (b : Fin 8) (n mm : Fin 4096) :
    val_main_v11 (F := Ideal) x0 x1 x2 (ix3 b n mm)
      = Cert.Spec.dot3 (fun k => val_main_v6 (F := Ideal) x1 x2 (ix3 b n k)) (fun k => x0 (ix3 b mm k)) := by
  rw [val_main_v11_apply]
  unfold Cert.Spec.dot3
  refine Finset.sum_congr rfl fun k _ => ?_
  have el : lidx_main_v11 (ix3 b n mm) k = ix3 b n k :=
    funext fun a => Fin.ext (by match a with | ⟨0, _⟩ => rfl | ⟨1, _⟩ => rfl | ⟨2, _⟩ => rfl)
  have er : ridx_main_v11 (ix3 b n mm) k = ix3 b mm k :=
    funext fun a => Fin.ext (by match a with | ⟨0, _⟩ => rfl | ⟨1, _⟩ => rfl | ⟨2, _⟩ => rfl)
  rw [el, er]

/-- The table's entry is the expanded squared distance of the two points. -/
theorem ref_dist (b : Fin 8) (n mm : Fin 4096) :
    val_main_v19 (F := Ideal) x0 x1 x2 (ix3 b n mm)
      = Cert.Spec.dist Cert.Spec.two (fun k => val_main_v6 (F := Ideal) x1 x2 (ix3 b n k)) (fun k => x0 (ix3 b mm k)) := by
  have e1 : idx_main_v12 (idx_main_v14 (ix3 b n mm)) = ix2 b n :=
    funext fun a => Fin.ext (by match a with | ⟨0, _⟩ => rfl | ⟨1, _⟩ => rfl)
  have e2 : idx_main_v13 (idx_main_v15 (ix3 b n mm)) = ix2 b mm :=
    funext fun a => Fin.ext (by match a with | ⟨0, _⟩ => rfl | ⟨1, _⟩ => rfl)
  rw [val_main_v19_apply, val_main_v16_apply, val_main_v18_apply, val_main_v14_apply, val_main_v12_apply,
    val_main_v15_apply, val_main_v13_apply, val_main_v17_apply, val_main_cst_1_apply, e1, e2,
    sq_src, sq_rec, dot_src_rec, Ideal.subf_def, Ideal.addf_def, Ideal.mulf_def, Ideal.ofBits_def]
  rfl

/-- A minimum of the table over its last axis: c is below it iff c is below every entry of the row. -/
theorem le_ref_rowmin (b : Fin 8) (n : Fin 4096) (c : EReal) :
    c ≤ val_main_v22 (F := Ideal) x0 x1 x2 (ix2 b n) ↔ ∀ mm : Fin 4096, c ≤ val_main_v19 (F := Ideal) x0 x1 x2 (ix3 b n mm) := by
  have h : S8x4096x4096.Reduces [2] S8x4096 := by decide
  unfold val_main_v22
  rw [Host.reduce_eq_fold_single (f := FloatOps.minimumf (F := Ideal) (φ := .f32)) (h := h)]
  rw [val_main_cst_4_apply, Ideal.ofBits_def, ofBits_inf_f32]
  have e : ∀ mm : Fin 4096, h.lift (ix2 b n) mm = ix3 b n mm := fun mm =>
    funext fun a => Fin.ext (by match a with | ⟨0, _⟩ => rfl | ⟨1, _⟩ => rfl | ⟨2, _⟩ => rfl)
  refine (Cert.Spec.le_fold_min_top (ι := Fin 4096)
    (fun mm => val_main_v19 (F := Ideal) x0 x1 x2 (h.lift (ix2 b n) mm)) c).trans ?_
  exact forall_congr' fun mm =>
    Iff.of_eq (congrArg (fun j => c ≤ val_main_v19 (F := Ideal) x0 x1 x2 j) (e mm))

/-- A minimum of the table over its middle axis: c is below it iff c is below every entry of the column. -/
theorem le_ref_colmin (b : Fin 8) (mm : Fin 4096) (c : EReal) :
    c ≤ val_main_v20 (F := Ideal) x0 x1 x2 (ix2 b mm) ↔ ∀ n : Fin 4096, c ≤ val_main_v19 (F := Ideal) x0 x1 x2 (ix3 b n mm) := by
  have h : S8x4096x4096.Reduces [1] S8x4096 := by decide
  unfold val_main_v20
  rw [Host.reduce_eq_fold_single (f := FloatOps.minimumf (F := Ideal) (φ := .f32)) (h := h)]
  rw [val_main_cst_2_apply, Ideal.ofBits_def, ofBits_inf_f32]
  have e : ∀ n : Fin 4096, h.lift (ix2 b mm) n = ix3 b n mm := fun n =>
    funext fun a => Fin.ext (by match a with | ⟨0, _⟩ => rfl | ⟨1, _⟩ => rfl | ⟨2, _⟩ => rfl)
  refine (Cert.Spec.le_fold_min_top (ι := Fin 4096)
    (fun n => val_main_v19 (F := Ideal) x0 x1 x2 (h.lift (ix2 b mm) n)) c).trans ?_
  exact forall_congr' fun n =>
    Iff.of_eq (congrArg (fun j => c ≤ val_main_v19 (F := Ideal) x0 x1 x2 j) (e n))

end Cert.Proof.RefSide

end
-- ==== Proof.Bridge.lean ====
/-
  The two programs compute one number.

  The kernel's result is the sum of its column-minima array plus the sum of its row-minima array; the reference's is
  the same two sums of its own two minima arrays. Entry by entry the arrays agree: each entry is a minimum over the same
  family of expanded squared distances, so the two have the same lower bounds. The transformed source points are the
  same function of the arguments in both programs (the host lines before the region are the reference's first lines).
-/
import proofs.«102629_j8830452761307_1_alg».proof.Proof.KI.Value
import proofs.«102629_j8830452761307_1_alg».proof.Proof.RefSide
import Idealize.ShloMosaic.Lib.StableHlo.Run

set_option maxRecDepth 16384

noncomputable section

namespace Cert.Proof.Bridge

open Cert.KernelIdeal Cert.KernelIdeal.Gen
open Idealize.ShloMosaic Idealize.ShloMosaic.TcCoe Idealize.ShloMosaic.ValueIdx
open Idealize.SL Idealize.SL.Sem
open Cert.Proof.KI

variable (m : (ℓ : Loc nD τ sig) → Buf (Elt Ideal) ℓ) (ρ : Dev nD → PrngReg)

/-- The three argument arrays, as the reference's stages take them. -/
abbrev a0 (c : Dev nD) : (⟨Cert.ReferenceIdeal.S8x4096x3, .f32⟩ : BufTy).Contents (Elt Ideal) := m ((c.tc : Thread nD τ).loc main_arg0)
abbrev a1 (c : Dev nD) : (⟨Cert.ReferenceIdeal.S8x4096x3, .f32⟩ : BufTy).Contents (Elt Ideal) := m ((c.tc : Thread nD τ).loc main_arg1)
abbrev a2 (c : Dev nD) : (⟨Cert.ReferenceIdeal.S8x4x4, .f32⟩ : BufTy).Contents (Elt Ideal) := m ((c.tc : Thread nD τ).loc main_arg2)

/-- The transformed source points the region finds are the reference's stage of them. -/
theorem garr_eq (c : Dev nD) :
    garr m c = Cert.ReferenceIdeal.Read.val_main_v6 (F := Ideal) (a1 m c) (a2 m c) := by
  show StableHlo.after hostOps0 (fun b => m (c, b)) (Proc.devRef .tc main_v6) = _
  after_results
  rfl

theorem parr_eq (c : Dev nD) : parr m c = a0 m c := V_main_arg0 m c

/-- The kernel's distance table is the reference's. -/
theorem D_eq (c : Dev nD) (b : Fin 8) (n mm : Fin 4096) :
    D m c b n mm = Cert.ReferenceIdeal.Read.val_main_v19 (F := Ideal) (a0 m c) (a1 m c) (a2 m c) (ix3 b n mm) := by
  rw [Cert.Proof.RefSide.ref_dist]
  unfold D
  rw [garr_eq, parr_eq]

/-- The column-minima arrays agree, -/
theorem col_eq (c : Dev nD) :
    (dats m 0 c).arrAt 3 cfg0.N = Cert.ReferenceIdeal.Read.val_main_v20 (F := Ideal) (a0 m c) (a1 m c) (a2 m c) := by
  funext j
  obtain ⟨b, col, rfl⟩ : ∃ (b : Fin 8) (col : Fin 4096), j = ix2 b col := ⟨j 0, j 1, eq_ix2 j⟩
  refine Cert.Spec.eq_of_le_iff fun cc => ?_
  rw [colFinal, Cert.Proof.RefSide.le_ref_colmin]
  exact forall_congr' fun nn => by rw [D_eq]

/-- and the row-minima arrays. -/
theorem row_eq (c : Dev nD) :
    (dats m 0 c).arrAt 2 cfg0.N = Cert.ReferenceIdeal.Read.val_main_v22 (F := Ideal) (a0 m c) (a1 m c) (a2 m c) := by
  funext j
  obtain ⟨b, n, rfl⟩ : ∃ (b : Fin 8) (n : Fin 4096), j = ix2 b n := ⟨j 0, j 1, eq_ix2 j⟩
  refine Cert.Spec.eq_of_le_iff fun cc => ?_
  rw [rowFinal, Cert.Proof.RefSide.le_ref_rowmin]
  exact forall_congr' fun mm => by rw [D_eq]

/-- So the kernel's result is the reference's last stage. -/
theorem result_eq (c : Dev nD) :
    total ((dats m 0 c).arrAt 3 cfg0.N) ((dats m 0 c).arrAt 2 cfg0.N)
      = Cert.ReferenceIdeal.Read.val_main_v24 (F := Ideal) (a0 m c) (a1 m c) (a2 m c) := by
  rw [col_eq, row_eq]
  rfl

end Cert.Proof.Bridge

end
-- ==== Proof.lean ====
/-
  The certificate: a tiled Chamfer loss against its plain reference.

  Both programs transform the source points by the batch's affine map, form for every batch the table of expanded
  squared distances (|u|² + |v|²) − 2 ⟨u, v⟩ between transformed source points and reconstructed points, take the
  minimum of every row and of every column, and add all these minima up. The reference forms the whole
  8 × 4096 × 4096 table; the kernel walks it in 512 × 512 tiles, keeping the row minima of the current row tile and the
  column minima of the whole table as running minima across grid points. Over the extended reals a minimum of minima
  over a partition is the minimum over the whole, and sums are the same sums: the two results are equal, with no
  appeal to finiteness of the inputs.

  The three frames: the kernel's at the word-level and at the ideal instance from one body proof written for every
  float instance (Proof/K/Body.lean, Proof/KI/Body.lean); the reference's from its run. The ideal pass rewrote
  nothing, so the idealization claim is trivial. The value claim: Proof/KI/Value.lean (what the kernel's two arrays
  hold), Proof/RefSide.lean (what the reference's hold) and Proof/Bridge.lean (they agree).
-/
import proofs.«102629_j8830452761307_1_alg».proof.Defs
import proofs.«102629_j8830452761307_1_alg».proof.Proof.Gen.Kernel
import proofs.«102629_j8830452761307_1_alg».proof.Proof.Gen.KernelIdeal
import proofs.«102629_j8830452761307_1_alg».proof.Proof.Gen.ReferenceIdeal
import proofs.«102629_j8830452761307_1_alg».proof.Proof.Gen.Pre_finite_inputs
import proofs.«102629_j8830452761307_1_alg».proof.Proof.Gen.ReferenceIdeal.Run
import proofs.«102629_j8830452761307_1_alg».proof.Proof.Gen.ReferenceIdeal.Read
import proofs.«102629_j8830452761307_1_alg».proof.Proof.K.Body
import proofs.«102629_j8830452761307_1_alg».proof.Proof.KI.Body
import proofs.«102629_j8830452761307_1_alg».proof.Proof.KI.Value
import proofs.«102629_j8830452761307_1_alg».proof.Proof.Bridge
import Idealize.ShloMosaic.Adequacy
import Idealize.ShloMosaic.Init

noncomputable section

namespace Cert.Proof

open Idealize.ShloMosaic Idealize.SL.Sem

section Claims

theorem frame_k : Cert.frame_Kernel := fun m ρ _ => Cert.Proof.K.frame (F := Bits) m ρ
theorem frame_ki : Cert.frame_KernelIdeal := fun m ρ _ => Cert.Proof.KI.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result is the total of its two minima arrays and the reference's is its last
    stage of arguments that agree: one number. -/
theorem algebraic : Cert.algebraic_KernelIdeal_ReferenceIdeal := by
  intro m ρ m' ρ' _ hagree
  refine ⟨_, Cert.Proof.KI.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2]
  exact (Cert.Proof.Bridge.result_eq m c).symm

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
